-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288x64 : Shape := ⟨2, ![524288, 64]⟩
abbrev S16x64 : Shape := ⟨2, ![16, 64]⟩
abbrev S524288 : Shape := ⟨1, ![524288]⟩
abbrev S384x256 : Shape := ⟨2, ![384, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S16x64 : S_.BroadcastsInDim S16x64 (![] : Fin 0 → Fin S16x64.rank)
  reducesTo_S16x64_S_d0_1 : S16x64.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S524288 : S_.BroadcastsInDim S524288 (![] : Fin 0 → Fin S524288.rank)
  reducesTo_S524288_S_d0 : S524288.ReducesTo [0] S_

variable [Facts]

def fn_part2 {F : FTy → Type} [FloatOps F] (main_arg4 : IVec S524288 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S524288 32 := broadcastInDim S524288 ![] bcast_S_S524288 main_c_14
  let main_v40 : IVec S524288 1 := cmpi .sge main_arg4 main_v39
  let main_c_15 : IVec S_ 32 := constantI S_ 32 16#32
  let main_v41 : IVec S524288 32 := broadcastInDim S524288 ![] bcast_S_S524288 main_c_15
  let main_v42 : IVec S524288 1 := cmpi .slt main_arg4 main_v41
  let main_v43 : IVec S524288 1 := andi main_v40 main_v42
  let main_c_16 : IVec S_ 1 := constantI S_ 1 1#1
  let main_v44 : IVec S_ 1 := (fun x v => Host.reduce IntOp.andi x v reducesTo_S524288_S_d0 h_S_) main_v43 main_c_16
  let main_v45 : IVec S_ 1 := andi main_v38 main_v44
  main_v45

def fn_part1 {F : FTy → Type} [FloatOps F] (main_arg4 : IVec S524288 32) (main_arg5 : FVec F S384x256 .f32) (main_arg6 : FVec F S256 .f32) (main_arg7 : FVec F S256x64 .f32) (main_arg8 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg4 main_arg8 main_v33

def fn {F : FTy → Type} [FloatOps F] (main_arg0 : FVec F S524288x128 .f32) (main_arg1 : FVec F S524288x128 .f32) (main_arg2 : FVec F S524288x64 .f32) (main_arg3 : FVec F S16x64 .f32) (main_arg4 : IVec S524288 32) (main_arg5 : FVec F S384x256 .f32) (main_arg6 : FVec F S256 .f32) (main_arg7 : FVec F S256x64 .f32) (main_arg8 : FVec F S64 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S524288x64 .f32 := Host.absf main_arg2
  let main_cst_2 : FVec F S_ .f32 := constant S_ .f32 0x7F800000#32
  let main_v10 : FVec F S524288x64 .f32 := broadcastInDim S524288x64 ![] bcast_S_S524288x64 main_cst_2
  let main_v11 : IVec S524288x64 1 := cmpf .olt main_v9 main_v10
  let main_c_3 : IVec S_ 1 := constantI S_ 1 1#1
  let main_v12 : IVec S_ 1 := (fun x v => Host.reduce IntOp.andi x v reducesTo_S524288x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_arg8 main_v13 main_v16
-- ==== Kernel.lean ====
abbrev S524288x128 : Shape := ⟨2, ![524288, 128]⟩
abbrev S524288x64 : Shape := ⟨2, ![524288, 64]⟩
abbrev S16x64 : Shape := ⟨2, ![16, 64]⟩
abbrev S524288 : Shape := ⟨1, ![524288]⟩
abbrev S384x256 : Shape := ⟨2, ![384, 256]⟩
abbrev S256 : Shape := ⟨1, ![256]⟩
abbrev S256x64 : Shape := ⟨2, ![256, 64]⟩
abbrev S64 : Shape := ⟨1, ![64]⟩
abbrev S256x256 : Shape := ⟨2, ![256, 256]⟩
abbrev S64x256 : Shape := ⟨2, ![64, 256]⟩
abbrev S16x256 : Shape := ⟨2, ![16, 256]⟩
abbrev S8192x128 : Shape := ⟨2, ![8192, 128]⟩
abbrev S8192x64 : Shape := ⟨2, ![8192, 64]⟩
abbrev S8192 : Shape := ⟨1, ![8192]⟩
abbrev S2048x16 : Shape := ⟨2, ![2048, 16]⟩
abbrev S2048x128 : Shape := ⟨2, ![2048, 128]⟩
abbrev S2048x64 : Shape := ⟨2, ![2048, 64]⟩
abbrev S2048 : Shape := ⟨1, ![2048]⟩
abbrev S2048x1 : Shape := ⟨2, ![2048, 1]⟩
abbrev S2048x256 : Shape := ⟨2, ![2048, 256]⟩
abbrev S1x256 : Shape := ⟨2, ![1, 256]⟩
abbrev S1x64 : Shape := ⟨2, ![1, 64]⟩

abbrev nBuf : Space → Nat
  | .hbm => 18
  | .vmem => 16
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x64, .f32⟩
  | .hbm, ⟨3, _⟩ => ⟨S16x64, .f32⟩
  | .hbm, ⟨4, _⟩ => ⟨S524288, .i32⟩
  | .hbm, ⟨5, _⟩ => ⟨S384x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S256x256, .f32⟩
  | .hbm, ⟨10, _⟩ => ⟨S64x256, .f32⟩
  | .hbm, ⟨11, _⟩ => ⟨S64x256, .f32⟩
  | .hbm, ⟨12, _⟩ => ⟨S16x256, .f32⟩
  | .hbm, ⟨13, _⟩ => ⟨S16x256, .bf16⟩
  | .hbm, ⟨14, _⟩ => ⟨S256x256, .bf16⟩
  | .hbm, ⟨15, _⟩ => ⟨S64x256, .bf16⟩
  | .hbm, ⟨16, _⟩ => ⟨S256x64, .bf16⟩
  | .hbm, ⟨17, _⟩ => ⟨S524288x64, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x64, .f32⟩
  | .local _ .vmem, ⟨5, _⟩ => ⟨S8192x64, .f32⟩
  | .local _ .vmem, ⟨6, _⟩ => ⟨S8192, .i32⟩
  | .local _ .vmem, ⟨7, _⟩ => ⟨S8192, .i32⟩
  | .local _ .vmem, ⟨8, _⟩ => ⟨S16x256, .bf16⟩
  | .local _ .vmem, ⟨9, _⟩ => ⟨S256x256, .bf16⟩
  | .local _ .vmem, ⟨10, _⟩ => ⟨S64x256, .bf16⟩
  | .local _ .vmem, ⟨11, _⟩ => ⟨S256, .f32⟩
  | .local _ .vmem, ⟨12, _⟩ => ⟨S256x64, .bf16⟩
  | .local _ .vmem, ⟨13, _⟩ => ⟨S64, .f32⟩
  | .local _ .vmem, ⟨14, _⟩ => ⟨S8192x64, .f32⟩
  | .local _ .vmem, ⟨15, _⟩ => ⟨S8192x64, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c2048_i32 : BitVec 32 := 2048#32
  let v11 : BitVec 32 := Scalar.muli c0_i32 c2048_i32
  v11
def k0_off1 (c0_i32 : BitVec 32) : Fin 2 → Nat :=
  let c2048_i32 : BitVec 32 := 2048#32
  let v11 : BitVec 32 := Scalar.muli c0_i32 c2048_i32
  let v12 : BitVec 32 := v11
  let v13 : Index := Scalar.indexCast v12
  let c0_9 : Index := 0#32
  ![v13.toNat, 0]
def k0_off2 (c0_i32 : BitVec 32) : Fin 2 → Nat :=
  let c2048_i32 : BitVec 32 := 2048#32
  let v11 : BitVec 32 := Scalar.muli c0_i32 c2048_i32
  let v12 : BitVec 32 := v11
  let v19 : Index := Scalar.indexCast v12
  let c0_11 : Index := 0#32
  ![v19.toNat, 0]
def k0_off3 (c0_i32 : BitVec 32) : Fin 1 → Nat :=
  let c2048_i32 : BitVec 32 := 2048#32
  let v11 : BitVec 32 := Scalar.muli c0_i32 c2048_i32
  let v12 : BitVec 32 := v11
  let v22 : Index := Scalar.indexCast v12
  ![v22.toNat]
def k0_mult2 : BitVec 32 :=
  let c1_i32 : BitVec 32 := 1#32
  let c2048_i32_17 : BitVec 32 := 2048#32
  let v48 : BitVec 32 := Scalar.muli c1_i32 c2048_i32_17
  v48
def k0_mult3 : BitVec 32 :=
  let c2_i32 : BitVec 32 := 2#32
  let c2048_i32_27 : BitVec 32 := 2048#32
  let v85 : BitVec 32 := Scalar.muli c2_i32 c2048_i32_27
  v85
def k0_mult4 : BitVec 32 :=
  let c3_i32 : BitVec 32 := 3#32
  let c2048_i32_37 : BitVec 32 := 2048#32
  let v122 : BitVec 32 := Scalar.muli c3_i32 c2048_i32_37
  v122
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8192x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S384x256_S256x256_0_0 : S384x256.Slices ![0, 0] S256x256
  slices_S384x256_S64x256_256_0 : S384x256.Slices ![256, 0] S64x256
  slices_S384x256_S64x256_320_0 : S384x256.Slices ![320, 0] S64x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256_S256_0 : ∀ a, (![0] : Fin 1 → Nat) a + S256.size a ≤ S256.size a
  h_S256 : 0 < S256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  iota_S2048x16_d1_w32 : S2048x16.Iotas .tc 32 [1]
  h_S2048x128 : 0 < S2048x128.numel
  h_S2048x64 : 0 < S2048x64.numel
  h_S2048 : 0 < S2048.numel
  shapeCasts_S2048_S2048x1 : S2048.ShapeCasts S2048x1
  broadcasts_S2048x1_S2048x16 : S2048x1.Broadcasts S2048x16
  natLt_1_32 : 1 < 32
  concatenates_S2048x128_S2048x128_S2048x256_d1 : Shape.Concatenates [S2048x128, S2048x128] S2048x256 1
  shapeCasts_S256_S1x256 : S256.ShapeCasts S1x256
  broadcasts_S1x256_S2048x256 : S1x256.Broadcasts S2048x256
  shapeCasts_S64_S1x64 : S64.ShapeCasts S1x64
  broadcasts_S1x64_S2048x64 : S1x64.Broadcasts S2048x64
  dot_S16x64_S64x256_S16x256_1_0_0_1_n_n_wf : DotDims.WF S16x64 S64x256 S16x256 [1] [0] [0] [1] [] []
  dot_S2048x256_S256x256_S2048x256_1_0_0_1_n_n_wf : DotDims.WF S2048x256 S256x256 S2048x256 [1] [0] [0] [1] [] []
  dot_S2048x64_S64x256_S2048x256_1_0_0_1_n_n_wf : DotDims.WF S2048x64 S64x256 S2048x256 [1] [0] [0] [1] [] []
  dot_S2048x16_S16x256_S2048x256_1_0_0_1_n_n_wf : DotDims.WF S2048x16 S16x256 S2048x256 [1] [0] [0] [1] [] []
  dot_S2048x256_S256x64_S2048x64_1_0_0_1_n_n_wf : DotDims.WF S2048x256 S256x64 S2048x64 [1] [0] [0] [1] [] []
  hrank0 : 0 < grid0.rank
  k0_mult1_dvd : 2048 ∣ k0_mult1.toNat
  k0_off1_inb : ∀ (r : Fin 4), ∀ a, (k0_off1 (BitVec.ofNat 32 r.val)) a + S2048x128.size a ≤ S8192x128.size a
  k0_off2_inb : ∀ (r : Fin 4), ∀ a, (k0_off2 (BitVec.ofNat 32 r.val)) a + S2048x64.size a ≤ S8192x64.size a
  k0_off3_inb : ∀ (r : Fin 4), ∀ a, (k0_off3 (BitVec.ofNat 32 r.val)) a + S2048.size a ≤ S8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S524288x64.size a
  hwx0_2 : ∀ i : grid0.Coords, EltTy.bits .f32 = 32 ∨ (Rect.block (s := S524288x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S524288.size a
  hwx0_3 : ∀ i : grid0.Coords, EltTy.bits .i32 = 32 ∨ (Rect.block (s := S524288) S8192.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .bf16 = 32 ∨ (Rect.block (s := S16x256) S16x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S256x64.size a
  hwx0_8 : ∀ i : grid0.Coords, EltTy.bits .bf16 = 32 ∨ (Rect.block (s := S256x64) S256x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x64.size a ≤ S524288x64.size a
  hwx0_10 : ∀ i : grid0.Coords, EltTy.bits .f32 = 32 ∨ (Rect.block (s := S524288x64) S8192x64.size (cc0_transform_10 i) (hinb0_10 i)).WholeWords (EltTy.packing .f32)

variable [Facts₀]

def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S8192x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S524288x128 : Shape := ⟨2, ![524288, 128]⟩
abbrev S524288x64 : Shape := ⟨2, ![524288, 64]⟩
abbrev S16x64 : Shape := ⟨2, ![16, 64]⟩
abbrev S524288 : Shape := ⟨1, ![524288]⟩
abbrev S384x256 : Shape := ⟨2, ![384, 256]⟩
abbrev S256 : Shape := ⟨1, ![256]⟩
abbrev S256x64 : Shape := ⟨2, ![256, 64]⟩
abbrev S64 : Shape := ⟨1, ![64]⟩
abbrev S_ : Shape := ⟨0, ![]⟩
abbrev S524288x1 : Shape := ⟨2, ![524288, 1]⟩
abbrev S524288x384 : Shape := ⟨2, ![524288, 384]⟩
abbrev S524288x256 : Shape := ⟨2, ![524288, 256]⟩
abbrev S1x256 : Shape := ⟨2, ![1, 256]⟩
abbrev S1x64 : Shape := ⟨2, ![1, 64]⟩

abbrev nBuf : Space → Nat
  | .hbm => 30
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x64, .f32⟩
  | .hbm, ⟨3, _⟩ => ⟨S16x64, .f32⟩
  | .hbm, ⟨4, _⟩ => ⟨S524288, .i32⟩
  | .hbm, ⟨5, _⟩ => ⟨S384x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x64, .f32⟩
  | .hbm, ⟨18, _⟩ => ⟨S524288x384, .f32⟩
  | .hbm, ⟨19, _⟩ => ⟨S524288x256, .f32⟩
  | .hbm, ⟨20, _⟩ => ⟨S1x256, .f32⟩
  | .hbm, ⟨21, _⟩ => ⟨S524288x256, .f32⟩
  | .hbm, ⟨22, _⟩ => ⟨S524288x256, .f32⟩
  | .hbm, ⟨23, _⟩ => ⟨S_, .f32⟩
  | .hbm, ⟨24, _⟩ => ⟨S524288x256, .f32⟩
  | .hbm, ⟨25, _⟩ => ⟨S524288x256, .f32⟩
  | .hbm, ⟨26, _⟩ => ⟨S524288x64, .f32⟩
  | .hbm, ⟨27, _⟩ => ⟨S1x64, .f32⟩
  | .hbm, ⟨28, _⟩ => ⟨S524288x64, .f32⟩
  | .hbm, ⟨29, _⟩ => ⟨S524288x64, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x64_S524288x64_S524288x384_d1 : Shape.Concatenates [S524288x128, S524288x128, S524288x64, S524288x64] S524288x384 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  gather_S16x64_S524288x1_S524288x64_1_0_n_n_0_1_164_wf : GatherDims.WF S16x64 S524288x1 S524288x64 [1] [0] [] [0] [] 1 ![1, 64]
  dot_S524288x384_S384x256_S524288x256_1_0_0_1_n_n_wf : DotDims.WF S524288x384 S384x256 S524288x256 [1] [0] [0] [1] [] []
  dot_S524288x256_S256x64_S524288x64_1_0_0_1_n_n_wf : DotDims.WF S524288x256 S256x64 S524288x64 [1] [0] [0] [1] [] []

variable [Facts₀]

def gather_S16x64_S524288x1_S524288x64_1_0_n_n_0_1_164 : GatherDims S16x64 S524288x1 S524288x64 where
  offsetDims := [1]
  collapsedSliceDims := [0]
  operandBatchingDims := []
  startIndicesBatchingDims := []
  startIndexMap := [0]
  indexVectorDim := 1
  sliceSizes := ![1, 64]
  wf := gather_S16x64_S524288x1_S524288x64_1_0_n_n_0_1_164_wf
def dot_S524288x384_S384x256_S524288x256_1_0_0_1_n_n : DotDims S524288x384 S384x256 S524288x256 where
  lhsContracting := [1]
  rhsContracting := [0]
  lhsNonContracting := [0]
  rhsNonContracting := [1]
  lhsBatch := []
  rhsBatch := []
  wf := dot_S524288x384_S384x256_S524288x256_1_0_0_1_n_n_wf
def dot_S524288x256_S256x64_S524288x64_1_0_0_1_n_n : DotDims S524288x256 S256x64 S524288x64 where
  lhsContracting := [1]
  rhsContracting := [0]
  lhsNonContracting := [0]
  rhsNonContracting := [1]
  lhsBatch := []
  rhsBatch := []
  wf := dot_S524288x256_S256x64_S524288x64_1_0_0_1_n_n_wf

class Facts : Prop extends Facts₀ where

variable [Facts]
-- ==== Proof.RowSpec.lean ====
/-
  One edge of the edge model, as a function of that edge's own rows.

  Both programs compute, for edge `e` and output column `j`,
      out[e, j] = Σ_q max(h[e, q], 0) · W2[q, j] + b2[j],
  and differ only in how the hidden unit `h[e, q]` is accumulated:

  * as ONE contraction of length 384 of the joined row  [ src[e] | dest[e] | edge_attr[e] | u[g] ]  (g the edge's
    group) against W1, plus b1[q]  (`hiddenCat`);
  * as THREE contractions — the joined row [ src[e] | dest[e] ] against W1's rows 0..255, edge_attr[e] against
    rows 256..319, and the one-hot row of the edge's group word against the table  T[g, q] = Σ_k u[g, k] · W1[320 + k, q]
    — plus b1[q]  (`hiddenSplit`).

  When the group word is the word of some g₀ < 16 the one-hot row is the indicator of g₀, the third contraction is the row
  T[g₀, ·], and the three contractions are the three stretches of the one of length 384: `hiddenCat_eq_hiddenSplit`. Only
  commutativity and associativity of + and the laws 0·x = 0, 1·x = x are used, so the law holds on all extended reals.
-/
import Idealize.ShloMosaic.PureOps.Ideal
import Idealize.ShloMosaic.Lib.ValueIdx

noncomputable section

open scoped BigOperators

namespace Cert.EdgeMlp

open Idealize.ShloMosaic Idealize.ShloMosaic.ValueIdx

/-- The weight of group `g` in the one-hot row of a group word `w`: the bit "w is the word g", widened to a word and read
    as a signed integer — 1 when `w` is the word of `g`, 0 otherwise. -/
def hot (w : BitVec 32) (g : Fin 16) : EReal :=
  ((((IntOp.cmpi .eq w (BitVec.ofNat 32 g.val)).setWidth 32).toInt : ℝ) : EReal)

/-- The one-hot row of the word of `g₀` is 1 at `g₀`. -/
theorem hot_self (g₀ : Fin 16) : hot (BitVec.ofNat 32 g₀.val) g₀ = 1 := by
  unfold hot
  have hc : IntOp.cmpi .eq (BitVec.ofNat 32 g₀.val) (BitVec.ofNat 32 g₀.val) = 1#1 := by
    simp [IntOp.cmpi]
  have h1 : ((1#1 : BitVec 1).setWidth 32).toInt = 1 := by decide
  rw [hc, h1]
  norm_num

/-- … and 0 at every other group. -/
theorem hot_ne (g₀ g : Fin 16) (h : g ≠ g₀) : hot (BitVec.ofNat 32 g₀.val) g = 0 := by
  unfold hot
  have hne : ¬ IntOp.cmpi .eq (BitVec.ofNat 32 g₀.val) (BitVec.ofNat 32 g.val) = 1#1 := by
    intro hc
    have he : BitVec.ofNat 32 g₀.val = BitVec.ofNat 32 g.val := by
      have hc' : BitVec.ofBool (BitVec.ofNat 32 g₀.val == BitVec.ofNat 32 g.val) = 1#1 := hc
      by_contra hne'
      rw [beq_eq_false_iff_ne.mpr hne'] at hc'
      exact absurd hc' (by decide)
    have hv := congrArg BitVec.toNat he
    rw [BitVec.toNat_ofNat, BitVec.toNat_ofNat, Nat.mod_eq_of_lt (by have := g₀.isLt; omega),
      Nat.mod_eq_of_lt (by have := g.isLt; omega)] at hv
    exact h (Fin.ext hv.symm)
  have h0 : ((0#1 : BitVec 1).setWidth 32).toInt = 0 := by decide
  rw [eq_zero_of_ne_one hne, h0]
  norm_num

/-- The row [ s | d ] of length 256. -/
def joinSD (s d : Fin 128 → EReal) (k : Fin 256) : EReal :=
  if h : k.val < 128 then s ⟨k.val, h⟩ else d ⟨k.val - 128, by omega⟩

/-- The row [ s | d | ed | ur ] of length 384. -/
def joinAll (s d : Fin 128 → EReal) (ed ur : Fin 64 → EReal) (k : Fin 384) : EReal :=
  if h : k.val < 128 then s ⟨k.val, h⟩
  else if h1 : k.val < 256 then d ⟨k.val - 128, by omega⟩
  else if h2 : k.val < 320 then ed ⟨k.val - 256, by omega⟩
  else ur ⟨k.val - 320, by omega⟩

/-- Hidden unit `q` of one edge as three contractions: [ s | d ] against `Wsd`, `ed` against `We`, the one-hot row of
    the group word `w` against the table `T`; plus the bias. -/
def hiddenSplit (s d : Fin 128 → EReal) (ed : Fin 64 → EReal) (w : BitVec 32)
    (Wsd : Fin 256 → Fin 256 → EReal) (We : Fin 64 → Fin 256 → EReal) (T : Fin 16 → Fin 256 → EReal)
    (b1 : Fin 256 → EReal) (q : Fin 256) : EReal :=
  (((∑ k : Fin 256, joinSD s d k * Wsd k q) + (∑ k : Fin 64, ed k * We k q)) + (∑ g : Fin 16, hot w g * T g q)) + b1 q

/-- Hidden unit `q` of one edge as one contraction of the joined row `x` against `W1`; plus the bias. -/
def hiddenCat (x : Fin 384 → EReal) (W1 : Fin 384 → Fin 256 → EReal) (b1 : Fin 256 → EReal) (q : Fin 256) : EReal :=
  (∑ k : Fin 384, x k * W1 k q) + b1 q

/-- Output column `j` of one edge from its hidden units: the rectified units against `W2`, plus the bias. -/
def rowOut (hid : Fin 256 → EReal) (W2 : Fin 256 → Fin 64 → EReal) (b2 : Fin 64 → EReal) (j : Fin 64) : EReal :=
  (∑ q : Fin 256, max (hid q) 0 * W2 q j) + b2 j

/-- Rows 0..255, 256..319 and 320..383 of a 384-row matrix. -/
def rowsLo (W1 : Fin 384 → Fin 256 → EReal) (k : Fin 256) (q : Fin 256) : EReal := W1 ⟨k.val, by omega⟩ q
def rowsMid (W1 : Fin 384 → Fin 256 → EReal) (k : Fin 64) (q : Fin 256) : EReal := W1 ⟨256 + k.val, by omega⟩ q
def rowsHi (W1 : Fin 384 → Fin 256 → EReal) (k : Fin 64) (q : Fin 256) : EReal := W1 ⟨320 + k.val, by omega⟩ q

/-- The table of the groups' contributions: row `g` of `u` against W1's rows 320..383. -/
def groupTable (u : Fin 16 → Fin 64 → EReal) (W1 : Fin 384 → Fin 256 → EReal) (g : Fin 16) (q : Fin 256) : EReal :=
  ∑ k : Fin 64, u g k * rowsHi W1 k q

/-- THE LAW. For an edge of group `g₀`, the one contraction of length 384 of [ s | d | ed | u[g₀] ] is the sum of the three
    contractions the split form makes. -/
theorem hiddenCat_eq_hiddenSplit (s d : Fin 128 → EReal) (ed : Fin 64 → EReal) (u : Fin 16 → Fin 64 → EReal) (g₀ : Fin 16)
    (W1 : Fin 384 → Fin 256 → EReal) (b1 : Fin 256 → EReal) (q : Fin 256) :
    hiddenCat (joinAll s d ed (u g₀)) W1 b1 q
      = hiddenSplit s d ed (BitVec.ofNat 32 g₀.val) (rowsLo W1) (rowsMid W1) (groupTable u W1) b1 q := by
  unfold hiddenCat hiddenSplit
  congr 1
  -- the one-hot contraction picks the row g₀ of the table
  have hT : (∑ g : Fin 16, hot (BitVec.ofNat 32 g₀.val) g * groupTable u W1 g q) = groupTable u W1 g₀ q := by
    rw [Finset.sum_eq_single g₀ (fun g _ hg => by rw [hot_ne g₀ g hg, zero_mul])
      (fun hg => absurd (Finset.mem_univ _) hg), hot_self, one_mul]
  rw [hT]
  -- a sum over 384 = (256 + 64) + 64 indices is the sum of its three stretches
  have hsplit : ∀ f : Fin 384 → EReal, (∑ k : Fin 384, f k)
      = ((∑ k : Fin 256, f ⟨k.val, by omega⟩) + (∑ k : Fin 64, f ⟨256 + k.val, by omega⟩))
        + (∑ k : Fin 64, f ⟨320 + k.val, by omega⟩) := by
    intro f
    have h1 : (∑ k : Fin 384, f k)
        = (∑ k : Fin 320, f ⟨k.val, by omega⟩) + (∑ k : Fin 64, f ⟨320 + k.val, by omega⟩) :=
      Fin.sum_univ_add (a := 320) (b := 64) f
    have h2 : (∑ k : Fin 320, f ⟨k.val, by omega⟩)
        = (∑ k : Fin 256, f ⟨k.val, by omega⟩) + (∑ k : Fin 64, f ⟨256 + k.val, by omega⟩) :=
      Fin.sum_univ_add (a := 256) (b := 64) (fun k : Fin 320 => f ⟨k.val, by omega⟩)
    rw [h1, h2]
  rw [hsplit]
  -- the first stretch is [ s | d ] against rows 0..255
  have e1 : (∑ k : Fin 256, joinAll s d ed (u g₀) ⟨k.val, by omega⟩ * W1 ⟨k.val, by omega⟩ q)
      = ∑ k : Fin 256, joinSD s d k * rowsLo W1 k q := by
    refine Finset.sum_congr rfl fun k _ => ?_
    unfold joinAll joinSD rowsLo
    by_cases h : k.val < 128
    · rw [dif_pos h, dif_pos h]
    · rw [dif_neg h, dif_neg h, dif_pos k.isLt]
  -- the second is ed against rows 256..319
  have e2 : (∑ k : Fin 64, joinAll s d ed (u g₀) ⟨256 + k.val, by omega⟩ * W1 ⟨256 + k.val, by omega⟩ q)
      = ∑ k : Fin 64, ed k * rowsMid W1 k q := by
    refine Finset.sum_congr rfl fun k _ => ?_
    unfold joinAll rowsMid
    rw [dif_neg (by show ¬ 256 + k.val < 128; omega), dif_neg (by show ¬ 256 + k.val < 256; omega),
      dif_pos (by show 256 + k.val < 320; have := k.isLt; omega)]
    exact congrArg (fun z => ed z * W1 ⟨256 + k.val, by omega⟩ q) (Fin.ext (by show 256 + k.val - 256 = k.val; omega))
  -- the third is the row g₀ of u against rows 320..383: the table's row g₀
  have e3 : (∑ k : Fin 64, joinAll s d ed (u g₀) ⟨320 + k.val, by omega⟩ * W1 ⟨320 + k.val, by omega⟩ q)
      = groupTable u W1 g₀ q := by
    unfold groupTable
    refine Finset.sum_congr rfl fun k _ => ?_
    unfold joinAll rowsHi
    rw [dif_neg (by show ¬ 320 + k.val < 128; omega), dif_neg (by show ¬ 320 + k.val < 256; omega),
      dif_neg (by show ¬ 320 + k.val < 320; omega)]
    exact congrArg (fun z => u g₀ z * W1 ⟨320 + k.val, by omega⟩ q) (Fin.ext (by show 320 + k.val - 320 = k.val; omega))
  rw [e1, e2, e3]

/-! ## The whole result array -/

/-- Row `e`, column `j` of the result as a function of the nine argument arrays (the split form). -/
def rowG (x0 x1 : (⟨2, ![524288, 128]⟩ : Shape).Idx → EReal) (x2 : (⟨2, ![524288, 64]⟩ : Shape).Idx → EReal)
    (x3 : (⟨2, ![16, 64]⟩ : Shape).Idx → EReal) (x4 : (⟨1, ![524288]⟩ : Shape).Idx → BitVec 32)
    (x5 : (⟨2, ![384, 256]⟩ : Shape).Idx → EReal) (x6 : (⟨1, ![256]⟩ : Shape).Idx → EReal)
    (x7 : (⟨2, ![256, 64]⟩ : Shape).Idx → EReal) (x8 : (⟨1, ![64]⟩ : Shape).Idx → EReal)
    (e : Fin 524288) (j : Fin 64) : EReal :=
  rowOut (hiddenSplit (fun k => x0 (ix2 e k)) (fun k => x1 (ix2 e k)) (fun k => x2 (ix2 e k)) (x4 (ix1 e))
      (rowsLo fun k q => x5 (ix2 k q)) (rowsMid fun k q => x5 (ix2 k q))
      (groupTable (fun g k => x3 (ix2 g k)) fun k q => x5 (ix2 k q)) (fun q => x6 (ix1 q)))
    (fun q j => x7 (ix2 q j)) (fun j => x8 (ix1 j)) j

/-- The result array. -/
def G (x0 x1 : (⟨2, ![524288, 128]⟩ : Shape).Idx → EReal) (x2 : (⟨2, ![524288, 64]⟩ : Shape).Idx → EReal)
    (x3 : (⟨2, ![16, 64]⟩ : Shape).Idx → EReal) (x4 : (⟨1, ![524288]⟩ : Shape).Idx → BitVec 32)
    (x5 : (⟨2, ![384, 256]⟩ : Shape).Idx → EReal) (x6 : (⟨1, ![256]⟩ : Shape).Idx → EReal)
    (x7 : (⟨2, ![256, 64]⟩ : Shape).Idx → EReal) (x8 : (⟨1, ![64]⟩ : Shape).Idx → EReal) :
    (⟨2, ![524288, 64]⟩ : Shape).Idx → EReal :=
  fun i => rowG x0 x1 x2 x3 x4 x5 x6 x7 x8 ⟨(i 0).val, idx2_lt0 i⟩ ⟨(i 1).val, idx2_lt1 i⟩

theorem G_apply (x0 x1 : (⟨2, ![524288, 128]⟩ : Shape).Idx → EReal) (x2 : (⟨2, ![524288, 64]⟩ : Shape).Idx → EReal)
    (x3 : (⟨2, ![16, 64]⟩ : Shape).Idx → EReal) (x4 : (⟨1, ![524288]⟩ : Shape).Idx → BitVec 32)
    (x5 : (⟨2, ![384, 256]⟩ : Shape).Idx → EReal) (x6 : (⟨1, ![256]⟩ : Shape).Idx → EReal)
    (x7 : (⟨2, ![256, 64]⟩ : Shape).Idx → EReal) (x8 : (⟨1, ![64]⟩ : Shape).Idx → EReal) (e : Fin 524288) (j : Fin 64) :
    G x0 x1 x2 x3 x4 x5 x6 x7 x8 (ix2 e j) = rowG x0 x1 x2 x3 x4 x5 x6 x7 x8 e j := rfl

end Cert.EdgeMlp

end
-- ==== Proof.PreRange.lean ====
/-
  The added precondition conjunct, decoded: every group word lies in [0, 16).

  The printed precondition is a conjunction (a chain of one-bit `and`s) whose last conjunct is the `and`-reduction over all
  524288 edges of  "0 ≤ batch[e]  and  batch[e] < 16"  (both signed compares). So when the precondition is all ones, each
  group word is the word of some g₀ < 16.
-/
import proofs.«423411_j49246095016466_3_alg».proof.Pre_finite_inputs
import proofs.«423411_j49246095016466_3_alg».proof.Proof.Gen.Pre_finite_inputs
import Idealize.ShloMosaic.Lib.ValueIdx
import Idealize.ShloMosaic.Lib.ReduceAll
import Idealize.ShloMosaic.Lib.StableHlo.Predicate

noncomputable section

namespace Cert.EdgeMlp.Pre

open Idealize.ShloMosaic Idealize.ShloMosaic.ValueIdx Cert.Pre_finite_inputs

/-- Under the precondition every edge's group word is the word of a group g₀ < 16. -/
theorem batch_range {F : FTy → Type} [FloatOps F] (a0 a1 : FVec F S524288x128 .f32) (a2 : FVec F S524288x64 .f32)
    (a3 : FVec F S16x64 .f32) (a4 : IVec S524288 32) (a5 : FVec F S384x256 .f32) (a6 : FVec F S256 .f32)
    (a7 : FVec F S256x64 .f32) (a8 : FVec F S64 .f32)
    (h : Cert.Pre_finite_inputs.fn (F := F) a0 a1 a2 a3 a4 a5 a6 a7 a8 = fun _ => 1#1) (e : Fin 524288) :
    ∃ g₀ : Fin 16, a4 (ix1 e) = BitVec.ofNat 32 g₀.val := by
  -- the precondition at its one index is a chain of one-bit conjunctions; only the last conjunct is needed
  have h0 := congrFun h ValueIdx.ix0
  dsimp only [fn, fn_part1, fn_part2] at h0
  have hlast := (IntOp.andi_eq_one.mp h0).2
  -- the last conjunct is the conjunction over all edges; read it at edge e
  haveI : Subsingleton S_.Idx := ⟨fun a b => funext fun d => d.elim0⟩
  have he := Host.reduce_andi_all _ _ _ _ _ hlast (ix1 e)
  obtain ⟨hge, hlt⟩ := IntOp.andi_eq_one.mp he
  -- the two compared constants are the words 0 and 16, broadcast
  have hge' : (0#32 : BitVec 32).toInt ≤ (a4 (ix1 e)).toInt := IntOp.cmpi_sge.mp hge
  have hlt' : (a4 (ix1 e)).toInt < (16#32 : BitVec 32).toInt := IntOp.cmpi_slt.mp hlt
  have z0 : (0#32 : BitVec 32).toInt = 0 := by decide
  have z16 : (16#32 : BitVec 32).toInt = 16 := by decide
  rw [z0] at hge'
  rw [z16] at hlt'
  -- a word whose signed value lies in [0, 16) is the word of its unsigned value, which is below 16
  have hlt32 := (a4 (ix1 e)).isLt
  rw [BitVec.toInt_eq_toNat_cond] at hge' hlt'
  have hn : (a4 (ix1 e)).toNat < 16 := by
    split at hge' <;> omega
  refine ⟨⟨(a4 (ix1 e)).toNat, hn⟩, BitVec.eq_of_toNat_eq ?_⟩
  rw [BitVec.toNat_ofNat]
  exact (Nat.mod_eq_of_lt (by omega)).symm

end Cert.EdgeMlp.Pre

end
-- ==== Proof.RefRead.lean ====
/-
  The reference, read row by row.

  Row e of the reference's result is the output row (`rowOut`) of the hidden units it gets from ONE contraction of length 384
  of the joined row [ src[e] | dest[e] | edge_attr[e] | u[g] ], where g is the edge's group word made non-negative (+16 when
  negative) and then clamped into [0, 15] by the gather. When the group word is the word of g₀ < 16 neither step changes it, the
  joined row is `joinAll … (u g₀)`, and the law of the specification turns the one contraction into the split form.
-/
import proofs.«423411_j49246095016466_3_alg».proof.Proof.Gen.ReferenceIdeal.Read
import proofs.«423411_j49246095016466_3_alg».proof.Proof.RowSpec
import Idealize.ShloMosaic.Lib.ValueIdx
import Idealize.ShloMosaic.Lib.Pipeline.Value

noncomputable section

open scoped BigOperators

namespace Cert.EdgeMlp.Ref

open Idealize.ShloMosaic Idealize.ShloMosaic.ValueIdx Cert.ReferenceIdeal Cert.ReferenceIdeal.Gen Cert.ReferenceIdeal.Read

/-- The word of a group below 16 is not negative: the signed comparison with zero gives the bit 0. -/
theorem word_not_neg : ∀ g : Fin 16, IntOp.cmpi .slt (BitVec.ofNat 32 g.val) 0#32 = 0#1 := by decide

/-- The signed reading of the word of a group below 16, clamped into [0, 15], is the group. -/
theorem word_clamp : ∀ g : Fin 16, min (BitVec.ofNat 32 g.val).toInt.toNat (16 - 1) = g.val := by decide

/-- The index column at row e is the group word itself, when that is the word of a group below 16: it is not negative,
    so the select keeps it. -/
theorem index_col (x4 : (⟨S524288, .i32⟩ : BufTy).Contents (Elt Ideal)) (e : Fin 524288) (g₀ : Fin 16)
    (hb : x4 (ix1 e) = BitVec.ofNat 32 g₀.val) :
    val_main_v5 (F := Ideal) x4 (ix2 e (0 : Fin 1)) = BitVec.ofNat 32 g₀.val := by
  have hi : idx_main_v5 (ix2 e (0 : Fin 1)) = ix1 e := by
    funext a
    match a with
    | ⟨0, _⟩ => rfl
  rw [val_main_v5_apply, hi, val_main_v4_apply, val_main_v1_apply, val_main_v0_apply, val_main_c_apply, hb,
    word_not_neg, select_zero]

/-- The gather read at (e, k): row "start index of e, read signed and clamped into [0, 15]" of the table, column k. -/
theorem gather_read {α : Type} {w : Nat} (x : S16x64.Idx → α) (idx : IVec S524288x1 w) (e : Fin 524288) (k : Fin 64) :
    Host.gather gather_S16x64_S524288x1_S524288x64_1_0_n_n_0_1_164 x idx (ix2 e k)
      = x (ix2 (⟨min (idx (ix2 e (0 : Fin 1))).toInt.toNat (16 - 1), by omega⟩ : Fin 16) k) := by
  unfold Host.gather
  congr 1
  funext a
  refine Fin.ext ?_
  match a with
  | ⟨0, _⟩ =>
    show gather_S16x64_S524288x1_S524288x64_1_0_n_n_0_1_164.start (ix2 e k) idx 0
      + gather_S16x64_S524288x1_S524288x64_1_0_n_n_0_1_164.batchCoord (ix2 e k) 0
      + gather_S16x64_S524288x1_S524288x64_1_0_n_n_0_1_164.offCoord (ix2 e k) 0 = _
    -- axis 0 is collapsed and is the start index's axis: no batching and no offset coordinate, the clamped start only
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x64_S524288x1_S524288x64_1_0_n_n_0_1_164.startIndexMap from
      List.mem_singleton.mpr rfl)]
    have hsi : gather_S16x64_S524288x1_S524288x64_1_0_n_n_0_1_164.siIdx (ix2 e k)
        ⟨List.idxOf (0 : Fin 2) gather_S16x64_S524288x1_S524288x64_1_0_n_n_0_1_164.startIndexMap,
          List.idxOf_lt_length_iff.2 (List.mem_singleton.mpr rfl)⟩ = ix2 e (0 : Fin 1) := by
      funext b
      refine Fin.ext ?_
      match b with
      | ⟨0, _⟩ => rfl
      | ⟨1, _⟩ => rfl
    rw [hsi]
    rfl
  | ⟨1, _⟩ =>
    show gather_S16x64_S524288x1_S524288x64_1_0_n_n_0_1_164.start (ix2 e k) idx 1
      + gather_S16x64_S524288x1_S524288x64_1_0_n_n_0_1_164.batchCoord (ix2 e k) 1
      + gather_S16x64_S524288x1_S524288x64_1_0_n_n_0_1_164.offCoord (ix2 e k) 1 = k.val
    -- axis 1 is the offset axis: no start index and no batching coordinate, the result's own column
    rw [GatherDims.batchCoord_eq_zero _ _ _ List.not_mem_nil]
    unfold GatherDims.start
    rw [dif_neg (show ¬ (1 : Fin 2) ∈ gather_S16x64_S524288x1_S524288x64_1_0_n_n_0_1_164.startIndexMap by decide)]
    unfold GatherDims.offCoord
    rw [dif_pos (show (1 : Fin 2) ∈ gather_S16x64_S524288x1_S524288x64_1_0_n_n_0_1_164.sKept by decide)]
    simp only [Nat.zero_add]
    rfl

/-- The gathered array at (e, k), for an edge whose group word is the word of g₀ < 16: row g₀ of the table. The index
    column holds the word itself, its signed reading is g₀, and the clamp into [0, 15] keeps it. -/
theorem gathered_apply (x3 : (⟨S16x64, .f32⟩ : BufTy).Contents (Elt Ideal)) (x4 : (⟨S524288, .i32⟩ : BufTy).Contents (Elt Ideal))
    (e : Fin 524288) (k : Fin 64) (g₀ : Fin 16) (hb : x4 (ix1 e) = BitVec.ofNat 32 g₀.val) :
    val_main_v6 (F := Ideal) x3 x4 (ix2 e k) = x3 (ix2 g₀ k) := by
  unfold val_main_v6
  refine (gather_read x3 (val_main_v5 (F := Ideal) x4) e k).trans (congrArg (fun z : Fin 16 => x3 (ix2 z k)) (Fin.ext ?_))
  show min (val_main_v5 (F := Ideal) x4 (ix2 e (0 : Fin 1))).toInt.toNat (16 - 1) = g₀.val
  rw [index_col x4 e g₀ hb]
  exact word_clamp g₀

/-- The concatenation at (e, k) is the joined row [ src[e] | dest[e] | edge_attr[e] | u[g₀] ] at k: one stretch of the
    joined axis per piece. -/
theorem joined_apply (x0 x1 : (⟨S524288x128, .f32⟩ : BufTy).Contents (Elt Ideal)) (x2 : (⟨S524288x64, .f32⟩ : BufTy).Contents (Elt Ideal))
    (x3 : (⟨S16x64, .f32⟩ : BufTy).Contents (Elt Ideal)) (x4 : (⟨S524288, .i32⟩ : BufTy).Contents (Elt Ideal))
    (e : Fin 524288) (k : Fin 384) (g₀ : Fin 16) (hb : x4 (ix1 e) = BitVec.ofNat 32 g₀.val) :
    val_main_v7 (F := Ideal) x0 x1 x2 x3 x4 (ix2 e k)
      = Cert.EdgeMlp.joinAll (fun c => x0 (ix2 e c)) (fun c => x1 (ix2 e c)) (fun c => x2 (ix2 e c))
          (fun c => x3 (ix2 g₀ c)) k := by
  have hk := k.isLt
  unfold val_main_v7 Cert.EdgeMlp.joinAll
  by_cases h0 : k.val < 128
  · -- columns 0..127: the first piece
    rw [dif_pos h0]
    exact concatenate_apply_piece (1 : Fin 2) _ _ (ix2 e k) 0 (by show 0 < 4; omega) S524288x128 x0 rfl rfl 0 rfl
      (ix2 e (⟨k.val, h0⟩ : Fin 128))
      (fun b => match b with
        | ⟨0, _⟩ => fun _ => rfl
        | ⟨1, _⟩ => fun h => absurd rfl h)
      (by show 0 + k.val = k.val; omega)
  · rw [dif_neg h0]
    by_cases h1 : k.val < 256
    · -- columns 128..255: the second piece at k - 128
      rw [dif_pos h1]
      exact concatenate_apply_piece (1 : Fin 2) _ _ (ix2 e k) 1 (by show 1 < 4; omega) S524288x128 x1 rfl rfl 128 rfl
        (ix2 e (⟨k.val - 128, by omega⟩ : Fin 128))
        (fun b => match b with
          | ⟨0, _⟩ => fun _ => rfl
          | ⟨1, _⟩ => fun h => absurd rfl h)
        (by show 128 + (k.val - 128) = k.val; omega)
    · rw [dif_neg h1]
      by_cases h2 : k.val < 320
      · -- columns 256..319: the third piece at k - 256
        rw [dif_pos h2]
        exact concatenate_apply_piece (1 : Fin 2) _ _ (ix2 e k) 2 (by show 2 < 4; omega) S524288x64 x2 rfl rfl 256 rfl
          (ix2 e (⟨k.val - 256, by omega⟩ : Fin 64))
          (fun b => match b with
            | ⟨0, _⟩ => fun _ => rfl
            | ⟨1, _⟩ => fun h => absurd rfl h)
          (by show 256 + (k.val - 256) = k.val; omega)
      · -- columns 320..383: the gathered piece at k - 320, which is row g₀ of the table
        rw [dif_neg h2]
        refine (concatenate_apply_piece (1 : Fin 2) _ _ (ix2 e k) 3 (by show 3 < 4; omega) S524288x64
          (val_main_v6 (F := Ideal) x3 x4) rfl rfl 320 rfl
          (ix2 e (⟨k.val - 320, by omega⟩ : Fin 64))
          (fun b => match b with
            | ⟨0, _⟩ => fun _ => rfl
            | ⟨1, _⟩ => fun h => absurd rfl h)
          (by show 320 + (k.val - 320) = k.val; omega)).trans ?_
        exact gathered_apply x3 x4 e _ g₀ hb

/-- The hidden unit q of edge e: the one contraction of length 384 of the joined row against W1, plus b1[q] — which the
    law of the specification turns into the three contractions of the split form. -/
theorem hidden_apply (x0 x1 : (⟨S524288x128, .f32⟩ : BufTy).Contents (Elt Ideal)) (x2 : (⟨S524288x64, .f32⟩ : BufTy).Contents (Elt Ideal))
    (x3 : (⟨S16x64, .f32⟩ : BufTy).Contents (Elt Ideal)) (x4 : (⟨S524288, .i32⟩ : BufTy).Contents (Elt Ideal))
    (x5 : (⟨S384x256, .f32⟩ : BufTy).Contents (Elt Ideal)) (x6 : (⟨S256, .f32⟩ : BufTy).Contents (Elt Ideal))
    (e : Fin 524288) (q : Fin 256) (g₀ : Fin 16) (hb : x4 (ix1 e) = BitVec.ofNat 32 g₀.val) :
    val_main_v11 (F := Ideal) x0 x1 x2 x3 x4 x5 x6 (ix2 e q)
      = Cert.EdgeMlp.hiddenSplit (fun k => x0 (ix2 e k)) (fun k => x1 (ix2 e k)) (fun k => x2 (ix2 e k))
          (BitVec.ofNat 32 g₀.val)
          (Cert.EdgeMlp.rowsLo fun k q => x5 (ix2 k q)) (Cert.EdgeMlp.rowsMid fun k q => x5 (ix2 k q))
          (Cert.EdgeMlp.groupTable (fun g k => x3 (ix2 g k)) fun k q => x5 (ix2 k q)) (fun q => x6 (ix1 q)) q := by
  refine Eq.trans ?_ (Cert.EdgeMlp.hiddenCat_eq_hiddenSplit (fun k => x0 (ix2 e k)) (fun k => x1 (ix2 e k))
    (fun k => x2 (ix2 e k)) (fun g k => x3 (ix2 g k)) g₀ (fun k q => x5 (ix2 k q)) (fun q => x6 (ix1 q)) q)
  have hl : ∀ k : Fin 384, lidx_main_v8 (ix2 e q) k = ix2 e k := fun k => by
    funext a
    match a with
    | ⟨0, _⟩ => rfl
    | ⟨1, _⟩ => rfl
  have hr : ∀ k : Fin 384, ridx_main_v8 (ix2 e q) k = ix2 k q := fun k => by
    funext a
    match a with
    | ⟨0, _⟩ => rfl
    | ⟨1, _⟩ => rfl
  have h6 : idx_main_v9 (idx_main_v10 (ix2 e q)) = ix1 q := by
    funext a
    match a with
    | ⟨0, _⟩ => rfl
  rw [val_main_v11_apply, val_main_v8_apply, val_main_v10_apply, val_main_v9_apply, h6]
  unfold Cert.EdgeMlp.hiddenCat
  show (∑ k : Fin 384, val_main_v7 (F := Ideal) x0 x1 x2 x3 x4 (lidx_main_v8 (ix2 e q) k) * x5 (ridx_main_v8 (ix2 e q) k))
    + x6 (ix1 q) = _
  refine congrArg (· + x6 (ix1 q)) (Finset.sum_congr rfl fun k _ => ?_)
  rw [hl, hr, joined_apply x0 x1 x2 x3 x4 e k g₀ hb]

/-- Row e, column j of the reference's result, for an edge whose group word is the word of g₀ < 16. -/
theorem ref_row (x0 x1 : (⟨S524288x128, .f32⟩ : BufTy).Contents (Elt Ideal)) (x2 : (⟨S524288x64, .f32⟩ : BufTy).Contents (Elt Ideal))
    (x3 : (⟨S16x64, .f32⟩ : BufTy).Contents (Elt Ideal)) (x4 : (⟨S524288, .i32⟩ : BufTy).Contents (Elt Ideal))
    (x5 : (⟨S384x256, .f32⟩ : BufTy).Contents (Elt Ideal)) (x6 : (⟨S256, .f32⟩ : BufTy).Contents (Elt Ideal))
    (x7 : (⟨S256x64, .f32⟩ : BufTy).Contents (Elt Ideal)) (x8 : (⟨S64, .f32⟩ : BufTy).Contents (Elt Ideal))
    (e : Fin 524288) (j : Fin 64) (g₀ : Fin 16) (hb : x4 (ix1 e) = BitVec.ofNat 32 g₀.val) :
    val_main_v16 (F := Ideal) x0 x1 x2 x3 x4 x5 x6 x7 x8 (ix2 e j) = Cert.EdgeMlp.rowG x0 x1 x2 x3 x4 x5 x6 x7 x8 e j := by
  have h8 : idx_main_v14 (idx_main_v15 (ix2 e j)) = ix1 j := by
    funext a
    match a with
    | ⟨0, _⟩ => rfl
  rw [val_main_v16_apply, val_main_v13_apply, val_main_v15_apply, val_main_v14_apply, h8]
  unfold Cert.EdgeMlp.rowG Cert.EdgeMlp.rowOut
  rw [hb]
  show (∑ q : Fin 256, val_main_v12 (F := Ideal) x0 x1 x2 x3 x4 x5 x6 (lidx_main_v13 (ix2 e j) q)
    * x7 (ridx_main_v13 (ix2 e j) q)) + x8 (ix1 j) = _
  refine congrArg (· + x8 (ix1 j)) (Finset.sum_congr rfl fun q _ => ?_)
  have hl : lidx_main_v13 (ix2 e j) q = ix2 e q := by
    funext a
    match a with
    | ⟨0, _⟩ => rfl
    | ⟨1, _⟩ => rfl
  have hr : ridx_main_v13 (ix2 e j) q = ix2 q j := by
    funext a
    match a with
    | ⟨0, _⟩ => rfl
    | ⟨1, _⟩ => rfl
  -- the rectified hidden unit: the maximum with the programs' literal zero, which is the extended real 0
  rw [hl, hr, val_main_v12_apply, val_main_call0_v0_apply, val_main_call0_cst_apply,
    hidden_apply x0 x1 x2 x3 x4 x5 x6 e q g₀ hb]
  show max _ (Ideal.ofBits .f32 0x00000000#32) * _ = _
  rw [Ideal.ofBits_zero_f32]

/-- The reference's result is the specification's array, when every group word is in range. -/
theorem ref_eq_G (x0 x1 : (⟨S524288x128, .f32⟩ : BufTy).Contents (Elt Ideal)) (x2 : (⟨S524288x64, .f32⟩ : BufTy).Contents (Elt Ideal))
    (x3 : (⟨S16x64, .f32⟩ : BufTy).Contents (Elt Ideal)) (x4 : (⟨S524288, .i32⟩ : BufTy).Contents (Elt Ideal))
    (x5 : (⟨S384x256, .f32⟩ : BufTy).Contents (Elt Ideal)) (x6 : (⟨S256, .f32⟩ : BufTy).Contents (Elt Ideal))
    (x7 : (⟨S256x64, .f32⟩ : BufTy).Contents (Elt Ideal)) (x8 : (⟨S64, .f32⟩ : BufTy).Contents (Elt Ideal))
    (hr : ∀ e : Fin 524288, ∃ g₀ : Fin 16, x4 (ix1 e) = BitVec.ofNat 32 g₀.val) :
    val_main_v16 (F := Ideal) x0 x1 x2 x3 x4 x5 x6 x7 x8 = Cert.EdgeMlp.G x0 x1 x2 x3 x4 x5 x6 x7 x8 := by
  funext i
  obtain ⟨e, j, rfl⟩ : ∃ (e : Fin 524288) (j : Fin 64), i = ix2 e j := ⟨i 0, i 1, eq_ix2 i⟩
  obtain ⟨g₀, hb⟩ := hr e
  exact ref_row x0 x1 x2 x3 x4 x5 x6 x7 x8 e j g₀ hb

end Cert.EdgeMlp.Ref

end
-- ==== Proof.HostPrep.lean ====
/-
  What the region finds in the arrays the host prepared: the three stretches of W1's rows, the groups' table, and W2.

  Before the one launch the host slices W1 into rows 0..255, 256..319 and 320..383, contracts u against the last stretch
  (the table T[g, q] = Σ_k u[g, k] · W1[320 + k, q]) and changes float formats, which at the ideal values changes nothing.
-/
import proofs.«423411_j49246095016466_3_alg».proof.Proof.Gen.KernelIdeal.Frame
import proofs.«423411_j49246095016466_3_alg».proof.Proof.RowSpec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.EdgeMlp.Host

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The arguments u, W1 and W2 as launched, and the four arrays the host prepares from them, each at its literal type. -/
abbrev uArr (c : Dev nD) : FVec Ideal S16x64 .f32 := m ((c : Thread nD τ).loc main_arg3)
abbrev w1Arr (c : Dev nD) : FVec Ideal S384x256 .f32 := m ((c : Thread nD τ).loc main_arg5)
abbrev w2Arr (c : Dev nD) : FVec Ideal S256x64 .f32 := m ((c : Thread nD τ).loc main_arg7)
abbrev loArr (c : Dev nD) : FVec Ideal S256x256 .bf16 := V m c main_v5
abbrev midArr (c : Dev nD) : FVec Ideal S64x256 .bf16 := V m c main_v6
abbrev tableArr (c : Dev nD) : FVec Ideal S16x256 .bf16 := V m c main_v4
abbrev w2bArr (c : Dev nD) : FVec Ideal S256x64 .bf16 := V m c main_v7

/-- The weight block of the joined [ src | dest ] contraction is W1's rows 0..255. -/
theorem V_w1_lo (c : Dev nD) (k q : Fin 256) :
    loArr m c (ix2 k q) = w1Arr m c (ix2 (⟨k.val, by omega⟩ : Fin 384) q) := by
  -- the array is the slice of W1 at offsets (0, 0), its format then changed
  have e : (V m c main_v5 : S256x256.Idx → EReal)
      = truncf .bf16 (extractStridedSlice S256x256 ![0, 0] (w1Arr m c) slices_S384x256_S256x256_0_0) bitsLt_bf16_f32 := by
    dsimp only [Gen.V, Gen.hostOps0]; after_results
  show (V m c main_v5 : S256x256.Idx → EReal) (ix2 k q) = _
  rw [e]
  -- the format change is the identity on extended reals; the slice reads W1 at the shifted index
  show extractStridedSlice S256x256 ![0, 0] (w1Arr m c) slices_S384x256_S256x256_0_0 (ix2 k q) = _
  exact extractStridedSlice_apply ![0, 0] (w1Arr m c) slices_S384x256_S256x256_0_0 (ix2 k q)
    (ix2 (⟨k.val, by omega⟩ : Fin 384) q) (fun a => match a with
      | ⟨0, _⟩ => by show k.val = 0 + k.val; omega
      | ⟨1, _⟩ => by show q.val = 0 + q.val; omega)

/-- The weight block of the edge_attr contraction is W1's rows 256..319. -/
theorem V_w1_mid (c : Dev nD) (k : Fin 64) (q : Fin 256) :
    midArr m c (ix2 k q) = w1Arr m c (ix2 (⟨256 + k.val, by omega⟩ : Fin 384) q) := by
  -- the array is the slice of W1 at offsets (256, 0), its format then changed
  have e : (V m c main_v6 : S64x256.Idx → EReal)
      = truncf .bf16 (extractStridedSlice S64x256 ![256, 0] (w1Arr m c) slices_S384x256_S64x256_256_0) bitsLt_bf16_f32 := by
    dsimp only [Gen.V, Gen.hostOps0]; after_results
  show (V m c main_v6 : S64x256.Idx → EReal) (ix2 k q) = _
  rw [e]
  show extractStridedSlice S64x256 ![256, 0] (w1Arr m c) slices_S384x256_S64x256_256_0 (ix2 k q) = _
  exact extractStridedSlice_apply ![256, 0] (w1Arr m c) slices_S384x256_S64x256_256_0 (ix2 k q)
    (ix2 (⟨256 + k.val, by omega⟩ : Fin 384) q) (fun a => match a with
      | ⟨0, _⟩ => by show 256 + k.val = 256 + k.val; rfl
      | ⟨1, _⟩ => by show q.val = 0 + q.val; omega)

/-- The operand indices of the table's product at output index `i` and contraction index `p`: the left operand is read at
    (i 0, p), the right at (p, i 1). One lemma per axis of each operand. -/
theorem lhs_table_0 (i : S16x256.Idx) (p : dot_S16x64_S64x256_S16x256_1_0_0_1_n_n.contr.Idx) :
    (dot_S16x64_S64x256_S16x256_1_0_0_1_n_n.lhsIdx i p 0).val = (i 0).val := by
  unfold DotDims.lhsIdx
  rw [dif_neg (show ¬(0 : Fin S16x64.rank) ∈ dot_S16x64_S64x256_S16x256_1_0_0_1_n_n.lhsBatch by decide),
    dif_pos (show (0 : Fin S16x64.rank) ∈ dot_S16x64_S64x256_S16x256_1_0_0_1_n_n.lhsNonContracting by decide)]
  rfl
theorem lhs_table_1 (i : S16x256.Idx) (p : dot_S16x64_S64x256_S16x256_1_0_0_1_n_n.contr.Idx) :
    (dot_S16x64_S64x256_S16x256_1_0_0_1_n_n.lhsIdx i p 1).val = (p ⟨0, by decide⟩).val :=
  dot_S16x64_S64x256_S16x256_1_0_0_1_n_n.lhsIdx_val_of_single rfl i p
theorem rhs_table_0 (i : S16x256.Idx) (p : dot_S16x64_S64x256_S16x256_1_0_0_1_n_n.contr.Idx) :
    (dot_S16x64_S64x256_S16x256_1_0_0_1_n_n.rhsIdx i p 0).val = (p ⟨0, by decide⟩).val :=
  dot_S16x64_S64x256_S16x256_1_0_0_1_n_n.rhsIdx_val_of_single rfl i p
theorem rhs_table_1 (i : S16x256.Idx) (p : dot_S16x64_S64x256_S16x256_1_0_0_1_n_n.contr.Idx) :
    (dot_S16x64_S64x256_S16x256_1_0_0_1_n_n.rhsIdx i p 1).val = (i 1).val := by
  unfold DotDims.rhsIdx
  rw [dif_neg (show ¬(1 : Fin S64x256.rank) ∈ dot_S16x64_S64x256_S16x256_1_0_0_1_n_n.rhsBatch by decide),
    dif_pos (show (1 : Fin S64x256.rank) ∈ dot_S16x64_S64x256_S16x256_1_0_0_1_n_n.rhsNonContracting by decide)]
  rfl

/-- The groups' table: row g of u against W1's rows 320..383. -/
theorem V_table (c : Dev nD) (g : Fin 16) (q : Fin 256) :
    tableArr m c (ix2 g q)
      = ∑ k : Fin 64, uArr m c (ix2 g k) * w1Arr m c (ix2 (⟨320 + k.val, by omega⟩ : Fin 384) q) := by
  -- the array is the product of u with the slice of W1 at offsets (320, 0), its format then changed
  have e : (V m c main_v4 : S16x256.Idx → EReal)
      = truncf .bf16 (Host.dotGeneral (F := Ideal) dot_S16x64_S64x256_S16x256_1_0_0_1_n_n none (uArr m c)
          (extractStridedSlice S64x256 ![320, 0] (w1Arr m c) slices_S384x256_S64x256_320_0)) bitsLt_bf16_f32 := by
    dsimp only [Gen.V, Gen.hostOps0]; after_results
  show (V m c main_v4 : S16x256.Idx → EReal) (ix2 g q) = _
  rw [e]
  show Host.dotGeneral (F := Ideal) dot_S16x64_S64x256_S16x256_1_0_0_1_n_n none (uArr m c)
      (extractStridedSlice S64x256 ![320, 0] (w1Arr m c) slices_S384x256_S64x256_320_0) (ix2 g q) = _
  generalize hy : extractStridedSlice S64x256 ![320, 0] (w1Arr m c) slices_S384x256_S64x256_320_0 = y
  simp only [Host.dotGeneral]
  -- the product at an index is the sum over the one contracted axis, of extent 64
  rw [Ideal.dotGeneral_apply, ← Equiv.sum_comp (ValueIdx.contrEquiv1 dot_S16x64_S64x256_S16x256_1_0_0_1_n_n 64 rfl rfl).symm]
  refine Finset.sum_congr rfl fun k _ => ?_
  have hk := ValueIdx.contrEquiv1_symm_val dot_S16x64_S64x256_S16x256_1_0_0_1_n_n 64 rfl rfl k
  have el : dot_S16x64_S64x256_S16x256_1_0_0_1_n_n.lhsIdx (ix2 g q) ((ValueIdx.contrEquiv1 dot_S16x64_S64x256_S16x256_1_0_0_1_n_n 64 rfl rfl).symm k) = ix2 g k :=
    funext fun a => Fin.ext (by
      match a with
      | ⟨0, _⟩ => exact lhs_table_0 _ _
      | ⟨1, _⟩ => exact (lhs_table_1 _ _).trans hk)
  have er : dot_S16x64_S64x256_S16x256_1_0_0_1_n_n.rhsIdx (ix2 g q) ((ValueIdx.contrEquiv1 dot_S16x64_S64x256_S16x256_1_0_0_1_n_n 64 rfl rfl).symm k) = ix2 k q :=
    funext fun a => Fin.ext (by
      match a with
      | ⟨0, _⟩ => exact (rhs_table_0 _ _).trans hk
      | ⟨1, _⟩ => exact rhs_table_1 _ _)
  rw [el, er, ← hy]
  -- the slice at (k, q) is W1 at (320 + k, q)
  refine congrArg (uArr m c (ix2 g k) * ·) ?_
  exact extractStridedSlice_apply ![320, 0] (w1Arr m c) slices_S384x256_S64x256_320_0 (ix2 k q)
    (ix2 (⟨320 + k.val, by omega⟩ : Fin 384) q) (fun a => match a with
      | ⟨0, _⟩ => by show 320 + k.val = 320 + k.val; rfl
      | ⟨1, _⟩ => by show q.val = 0 + q.val; omega)

/-- The second layer's weights are W2. -/
theorem V_w2 (c : Dev nD) : w2bArr m c = w2Arr m c := by
  -- the array is W2 with its format changed, which is the identity on extended reals
  have e : (V m c main_v7 : S256x64.Idx → EReal) = truncf .bf16 (w2Arr m c) bitsLt_bf16_f32 := by
    dsimp only [Gen.V, Gen.hostOps0]; after_results
  exact e

end Cert.EdgeMlp.Host

end
-- ==== Proof.ChunkRead.lean ====
/-
  One chunk of 2048 edges, as the kernel body computes it, read at an element.

  The body is unrolled over four chunks of 2048 rows of its 8192-row block; each chunk's stored value is the same sequence of
  operations of the six weight operands and that chunk's four row loads (`chunkOut`): the joined [ src | dest ] rows against the
  first weight block, edge_attr against the second, the one-hot rows of the group words against the groups' table, the bias, the
  rectifier, the second layer and its bias. Read at row r, column j it is the output row of the specification in its split form,
  of row r of the chunk's loads.
-/
import proofs.«423411_j49246095016466_3_alg».proof.Proof.Gen.KernelIdeal.Skeleton
import proofs.«423411_j49246095016466_3_alg».proof.Proof.RowSpec
import Idealize.ShloMosaic.Lib.ValueIdx
import Idealize.ShloMosaic.Lib.Pipeline.Value
import Idealize.ShloMosaic.PureOps.Ideal.Laws

noncomputable section

open scoped BigOperators

namespace Cert.EdgeMlp.Chunk

open Idealize.ShloMosaic Idealize.ShloMosaic.ValueIdx Cert.KernelIdeal Cert.KernelIdeal.Gen

section AnyInstance
variable {F : FTy → Type} [FloatOps F]

/-- The column coordinate of a [2048 × 16] array, as a word: what each group word of the chunk is compared with. -/
abbrev groupIota : IVec S2048x16 32 := iota .tc S2048x16 32 [1] Facts₀.iota_S2048x16_d1_w32

/-- What the body stores for one chunk, from the weight operands and the chunk's loads. -/
def chunkOut (v1 : FVec F S256x256 .bf16) (v3 : FVec F S64x256 .bf16) (v5 : FVec F S16x256 .bf16) (v6 : Vec F S256 .f32)
    (v8 : FVec F S256x64 .bf16) (v9 : Vec F S64 .f32) (vs vd : Vec F S2048x128 .f32) (ve : Vec F S2048x64 .f32)
    (vb : Vec F S2048 .i32) : FVec F S2048x64 .f32 :=
  k0_pay9 v1 v3 v5 v6 v8 v9 groupIota vs vd ve vb

/-- The second chunk's stored value. -/
theorem pay9_eq (v1 : FVec F S256x256 .bf16) (v3 : FVec F S64x256 .bf16) (v5 : FVec F S16x256 .bf16) (v6 : Vec F S256 .f32)
    (v8 : FVec F S256x64 .bf16) (v9 : Vec F S64 .f32) (vs vd : Vec F S2048x128 .f32) (ve : Vec F S2048x64 .f32)
    (vb : Vec F S2048 .i32) :
    k0_pay9 v1 v3 v5 v6 v8 v9 groupIota vs vd ve vb = chunkOut v1 v3 v5 v6 v8 v9 vs vd ve vb := rfl

/-- The third chunk's stored value. -/
theorem pay10_eq (v1 : FVec F S256x256 .bf16) (v3 : FVec F S64x256 .bf16) (v5 : FVec F S16x256 .bf16) (v6 : Vec F S256 .f32)
    (v8 : FVec F S256x64 .bf16) (v9 : Vec F S64 .f32) (vs vd : Vec F S2048x128 .f32) (ve : Vec F S2048x64 .f32)
    (vb : Vec F S2048 .i32) :
    k0_pay10 v1 v3 v5 v6 v8 v9 groupIota vs vd ve vb = chunkOut v1 v3 v5 v6 v8 v9 vs vd ve vb := rfl

/-- The fourth chunk's stored value (its src rows arrive already format-changed). -/
theorem pay1_eq (v1 : FVec F S256x256 .bf16) (v3 : FVec F S64x256 .bf16) (v5 : FVec F S16x256 .bf16) (v6 : Vec F S256 .f32)
    (v8 : FVec F S256x64 .bf16) (v9 : Vec F S64 .f32) (vs vd : Vec F S2048x128 .f32) (ve : Vec F S2048x64 .f32)
    (vb : Vec F S2048 .i32) :
    k0_pay1 v1 v3 v5 v6 v8 v9 groupIota (k0_pay11 vs) vd ve vb = chunkOut v1 v3 v5 v6 v8 v9 vs vd ve vb := rfl

/-- The first chunk's stored value (its hidden units and the rectifier's zero are named apart). -/
theorem pay8_eq (v0 : Vec F S256x256 .bf16) (v2 : Vec F S64x256 .bf16) (v4 : Vec F S16x256 .bf16) (v6 : Vec F S256 .f32)
    (v7 : Vec F S256x64 .bf16) (v9 : Vec F S64 .f32) (vs vd : Vec F S2048x128 .f32) (ve : Vec F S2048x64 .f32)
    (vb : Vec F S2048 .i32) :
    k0_pay8 (k0_pay5 v7) v9 (k0_pay6 v0 v2 v4 v6 vs vd ve vb) k0_pay7
      = chunkOut (k0_pay2 v0) (k0_pay3 v2) (k0_pay4 v4) v6 (k0_pay5 v7) v9 vs vd ve vb := rfl

/-- The weight operands as the body uses them are the staged blocks themselves (a shape cast to the same shape). -/
theorem pay2_eq (v0 : Vec F S256x256 .bf16) : k0_pay2 v0 = v0 := shapeCast_self v0 _
theorem pay3_eq (v2 : Vec F S64x256 .bf16) : k0_pay3 v2 = v2 := shapeCast_self v2 _
theorem pay4_eq (v4 : Vec F S16x256 .bf16) : k0_pay4 v4 = v4 := shapeCast_self v4 _
theorem pay5_eq (v7 : Vec F S256x64 .bf16) : k0_pay5 v7 = v7 := shapeCast_self v7 _

end AnyInstance

/-! ## The chunk's operations read at an element (ideal instance)

Each operation of the chunk that is not elementwise, read at one index over operands that are variables: the joined row
blocks, the group words against the column coordinate, the bias rows, and the four products as plain sums. -/

/-- The two 128-wide row blocks joined along the columns, read at row r, column k: the joined row of the two rows. -/
theorem concat_apply (a b : FVec Ideal S2048x128 .bf16) (r : Fin 2048) (k : Fin 256) :
    concatenate S2048x256 1 [⟨S2048x128, a⟩, ⟨S2048x128, b⟩] Facts₀.concatenates_S2048x128_S2048x128_S2048x256_d1 (ix2 r k)
      = Cert.EdgeMlp.joinSD (fun c => a (ix2 r c)) (fun c => b (ix2 r c)) k := by
  unfold Cert.EdgeMlp.joinSD
  by_cases h : k.val < 128
  · rw [dif_pos h]
    exact concatenate_pair_apply_left 1 a b _ (ix2 r k) rfl (ix2 r ⟨k.val, h⟩)
      (fun c => match c with | ⟨0, _⟩ => rfl | ⟨1, _⟩ => rfl)
  · rw [dif_neg h]
    exact concatenate_pair_apply_right 1 a b _ (ix2 r k) rfl rfl (ix2 r ⟨k.val - 128, by omega⟩)
      (fun c hc => match c, hc with | ⟨0, _⟩, _ => rfl | ⟨1, _⟩, hc => absurd rfl hc)
      (by show k.val - 128 + 128 = k.val; omega)

/-- The group words spread along 16 columns, read at (r, g): row r's word. -/
theorem words_apply (vb : IVec S2048 32) (r : Fin 2048) (g : Fin 16) :
    broadcastTo S2048x16 (shapeCast S2048x1 vb Facts₀.shapeCasts_S2048_S2048x1) Facts₀.broadcasts_S2048x1_S2048x16 (ix2 r g)
      = vb (ix1 r) := by
  refine (broadcastTo_apply _ _ (ix2 r g) (ix2 r ⟨0, Nat.one_pos⟩) (fun a => match a with
    | ⟨0, _⟩ => by show r.val = if (2048 : Nat) = 1 then 0 else r.val; rw [if_neg (by decide)]
    | ⟨1, _⟩ => by show 0 = if (1 : Nat) = 1 then 0 else g.val; rw [if_pos rfl])).trans ?_
  exact shapeCast_apply vb _ (ix2 r ⟨0, Nat.one_pos⟩) (ix1 r) (by
    rw [Shape.rowMajor_val_one, Shape.rowMajor_val_two]
    show r.val = r.val * 1 + 0
    omega)

/-- The column coordinate read at (r, g): the word of g. -/
theorem groupIota_apply (r : Fin 2048) (g : Fin 16) : groupIota (ix2 r g) = BitVec.ofNat 32 g.val :=
  iota_single_apply .tc S2048x16 32 1 _ (ix2 r g)

/-- The one-hot block read at (r, g): the weight of group g in the one-hot row of row r's word. -/
theorem onehot_apply (vb : IVec S2048 32) (r : Fin 2048) (g : Fin 16) :
    (truncf .bf16 (sitofp (F := Ideal) .f32 (extui 32 (cmpi .eq
        (broadcastTo S2048x16 (shapeCast S2048x1 vb Facts₀.shapeCasts_S2048_S2048x1) Facts₀.broadcasts_S2048x1_S2048x16)
        groupIota) Facts₀.natLt_1_32)) Facts₀.bitsLt_bf16_f32 : FVec Ideal S2048x16 .bf16) (ix2 r g)
      = Cert.EdgeMlp.hot (vb (ix1 r)) g := by
  show ((((IntOp.cmpi .eq (broadcastTo S2048x16 (shapeCast S2048x1 vb Facts₀.shapeCasts_S2048_S2048x1)
      Facts₀.broadcasts_S2048x1_S2048x16 (ix2 r g)) (groupIota (ix2 r g))).setWidth 32).toInt : ℝ) : EReal) = _
  rw [words_apply, groupIota_apply]
  rfl

/-- A bias row spread down 2048 rows, read at (r, q): entry q of the bias. -/
theorem bias256_apply (v6 : FVec Ideal S256 .f32) (r : Fin 2048) (q : Fin 256) :
    broadcastTo S2048x256 (shapeCast S1x256 v6 Facts₀.shapeCasts_S256_S1x256) Facts₀.broadcasts_S1x256_S2048x256 (ix2 r q)
      = v6 (ix1 q) := by
  refine (broadcastTo_apply _ _ (ix2 r q) (ix2 ⟨0, Nat.one_pos⟩ q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact shapeCast_apply v6 _ (ix2 ⟨0, Nat.one_pos⟩ q) (ix1 q) (by
    rw [Shape.rowMajor_val_one, Shape.rowMajor_val_two]
    show q.val = 0 * 256 + q.val
    omega)

/-- The second bias row spread down 2048 rows, read at (r, j): entry j of the bias. -/
theorem bias64_apply (v9 : FVec Ideal S64 .f32) (r : Fin 2048) (j : Fin 64) :
    broadcastTo S2048x64 (shapeCast S1x64 v9 Facts₀.shapeCasts_S64_S1x64) Facts₀.broadcasts_S1x64_S2048x64 (ix2 r j)
      = v9 (ix1 j) := by
  refine (broadcastTo_apply _ _ (ix2 r j) (ix2 ⟨0, Nat.one_pos⟩ j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact shapeCast_apply v9 _ (ix2 ⟨0, Nat.one_pos⟩ j) (ix1 j) (by
    rw [Shape.rowMajor_val_one, Shape.rowMajor_val_two]
    show j.val = 0 * 64 + j.val
    omega)

/-! ### A plain product [M, K] × [K, N] into the zero accumulator, read at an index -/

/-- For dimension numbers whose operand indices at output index (r, c) and contraction position k are (r, k) and (k, c) —
    stated as the four coordinate facts —, the product into the zero accumulator read at (r, c) is the sum over the K
    contracted positions of row r of the left operand against column c of the right one. -/
theorem mm_apply_of_axes {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal (⟨2, ![M, K]⟩ : Shape) φ₁) (rhs : FVec Ideal (⟨2, ![K, N]⟩ : Shape) φ₂) (r : Fin M) (c : Fin N) :
    matmul D none lhs rhs (constant (⟨2, ![M, N]⟩ : Shape) .f32 0x00000000#32) (ix2 r c)
      = ∑ k : Fin K, lhs (ix2 r k) * rhs (ix2 k c) := by
  show FloatOps.matmul D none lhs rhs (constant (⟨2, ![M, N]⟩ : Shape) .f32 0x00000000#32) (ix2 r c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The joined rows [2048, 256] against the first weight block [256, 256]. -/
theorem mm_sd_apply (lhs : FVec Ideal S2048x256 .bf16) (rhs : FVec Ideal S256x256 .bf16) (r : Fin 2048) (c : Fin 256) :
    matmul dot_S2048x256_S256x256_S2048x256_1_0_0_1_n_n none lhs rhs (constant S2048x256 .f32 0x00000000#32) (ix2 r c)
      = ∑ k : Fin 256, lhs (ix2 r k) * rhs (ix2 k c) :=
  mm_apply_of_axes dot_S2048x256_S256x256_S2048x256_1_0_0_1_n_n rfl rfl
    (fun i q => by
      unfold DotDims.lhsIdx
      rw [dif_neg (show ¬(0 : Fin S2048x256.rank) ∈ dot_S2048x256_S256x256_S2048x256_1_0_0_1_n_n.lhsBatch by decide),
        dif_pos (show (0 : Fin S2048x256.rank) ∈ dot_S2048x256_S256x256_S2048x256_1_0_0_1_n_n.lhsNonContracting by decide)]
      rfl)
    (fun i q => dot_S2048x256_S256x256_S2048x256_1_0_0_1_n_n.lhsIdx_val_of_single rfl i q)
    (fun i q => dot_S2048x256_S256x256_S2048x256_1_0_0_1_n_n.rhsIdx_val_of_single rfl i q)
    (fun i q => by
      unfold DotDims.rhsIdx
      rw [dif_neg (show ¬(1 : Fin S256x256.rank) ∈ dot_S2048x256_S256x256_S2048x256_1_0_0_1_n_n.rhsBatch by decide),
        dif_pos (show (1 : Fin S256x256.rank) ∈ dot_S2048x256_S256x256_S2048x256_1_0_0_1_n_n.rhsNonContracting by decide)]
      rfl)
    lhs rhs r c

/-- The edge attributes [2048, 64] against the second weight block [64, 256]. -/
theorem mm_ed_apply (lhs : FVec Ideal S2048x64 .bf16) (rhs : FVec Ideal S64x256 .bf16) (r : Fin 2048) (c : Fin 256) :
    matmul dot_S2048x64_S64x256_S2048x256_1_0_0_1_n_n none lhs rhs (constant S2048x256 .f32 0x00000000#32) (ix2 r c)
      = ∑ k : Fin 64, lhs (ix2 r k) * rhs (ix2 k c) :=
  mm_apply_of_axes dot_S2048x64_S64x256_S2048x256_1_0_0_1_n_n rfl rfl
    (fun i q => by
      unfold DotDims.lhsIdx
      rw [dif_neg (show ¬(0 : Fin S2048x64.rank) ∈ dot_S2048x64_S64x256_S2048x256_1_0_0_1_n_n.lhsBatch by decide),
        dif_pos (show (0 : Fin S2048x64.rank) ∈ dot_S2048x64_S64x256_S2048x256_1_0_0_1_n_n.lhsNonContracting by decide)]
      rfl)
    (fun i q => dot_S2048x64_S64x256_S2048x256_1_0_0_1_n_n.lhsIdx_val_of_single rfl i q)
    (fun i q => dot_S2048x64_S64x256_S2048x256_1_0_0_1_n_n.rhsIdx_val_of_single rfl i q)
    (fun i q => by
      unfold DotDims.rhsIdx
      rw [dif_neg (show ¬(1 : Fin S64x256.rank) ∈ dot_S2048x64_S64x256_S2048x256_1_0_0_1_n_n.rhsBatch by decide),
        dif_pos (show (1 : Fin S64x256.rank) ∈ dot_S2048x64_S64x256_S2048x256_1_0_0_1_n_n.rhsNonContracting by decide)]
      rfl)
    lhs rhs r c

/-- The one-hot rows [2048, 16] against the groups' table [16, 256]. -/
theorem mm_grp_apply (lhs : FVec Ideal S2048x16 .bf16) (rhs : FVec Ideal S16x256 .bf16) (r : Fin 2048) (c : Fin 256) :
    matmul dot_S2048x16_S16x256_S2048x256_1_0_0_1_n_n none lhs rhs (constant S2048x256 .f32 0x00000000#32) (ix2 r c)
      = ∑ g : Fin 16, lhs (ix2 r g) * rhs (ix2 g c) :=
  mm_apply_of_axes dot_S2048x16_S16x256_S2048x256_1_0_0_1_n_n rfl rfl
    (fun i q => by
      unfold DotDims.lhsIdx
      rw [dif_neg (show ¬(0 : Fin S2048x16.rank) ∈ dot_S2048x16_S16x256_S2048x256_1_0_0_1_n_n.lhsBatch by decide),
        dif_pos (show (0 : Fin S2048x16.rank) ∈ dot_S2048x16_S16x256_S2048x256_1_0_0_1_n_n.lhsNonContracting by decide)]
      rfl)
    (fun i q => dot_S2048x16_S16x256_S2048x256_1_0_0_1_n_n.lhsIdx_val_of_single rfl i q)
    (fun i q => dot_S2048x16_S16x256_S2048x256_1_0_0_1_n_n.rhsIdx_val_of_single rfl i q)
    (fun i q => by
      unfold DotDims.rhsIdx
      rw [dif_neg (show ¬(1 : Fin S16x256.rank) ∈ dot_S2048x16_S16x256_S2048x256_1_0_0_1_n_n.rhsBatch by decide),
        dif_pos (show (1 : Fin S16x256.rank) ∈ dot_S2048x16_S16x256_S2048x256_1_0_0_1_n_n.rhsNonContracting by decide)]
      rfl)
    lhs rhs r c

/-- The rectified hidden units [2048, 256] against the second layer [256, 64]. -/
theorem mm_out_apply (lhs : FVec Ideal S2048x256 .bf16) (rhs : FVec Ideal S256x64 .bf16) (r : Fin 2048) (c : Fin 64) :
    matmul dot_S2048x256_S256x64_S2048x64_1_0_0_1_n_n none lhs rhs (constant S2048x64 .f32 0x00000000#32) (ix2 r c)
      = ∑ q : Fin 256, lhs (ix2 r q) * rhs (ix2 q c) :=
  mm_apply_of_axes dot_S2048x256_S256x64_S2048x64_1_0_0_1_n_n rfl rfl
    (fun i q => by
      unfold DotDims.lhsIdx
      rw [dif_neg (show ¬(0 : Fin S2048x256.rank) ∈ dot_S2048x256_S256x64_S2048x64_1_0_0_1_n_n.lhsBatch by decide),
        dif_pos (show (0 : Fin S2048x256.rank) ∈ dot_S2048x256_S256x64_S2048x64_1_0_0_1_n_n.lhsNonContracting by decide)]
      rfl)
    (fun i q => dot_S2048x256_S256x64_S2048x64_1_0_0_1_n_n.lhsIdx_val_of_single rfl i q)
    (fun i q => dot_S2048x256_S256x64_S2048x64_1_0_0_1_n_n.rhsIdx_val_of_single rfl i q)
    (fun i q => by
      unfold DotDims.rhsIdx
      rw [dif_neg (show ¬(1 : Fin S256x64.rank) ∈ dot_S2048x256_S256x64_S2048x64_1_0_0_1_n_n.rhsBatch by decide),
        dif_pos (show (1 : Fin S256x64.rank) ∈ dot_S2048x256_S256x64_S2048x64_1_0_0_1_n_n.rhsNonContracting by decide)]
      rfl)
    lhs rhs r c

/-- The hidden units before the rectifier, read at (r, q): the three contractions and the bias of the split form. -/
theorem hidden_apply (v1 : FVec Ideal S256x256 .bf16) (v3 : FVec Ideal S64x256 .bf16) (v5 : FVec Ideal S16x256 .bf16)
    (v6 : FVec Ideal S256 .f32) (vs vd : FVec Ideal S2048x128 .f32) (ve : FVec Ideal S2048x64 .f32) (vb : IVec S2048 32)
    (r : Fin 2048) (q : Fin 256) :
    addf (addf (addf
        (matmul dot_S2048x256_S256x256_S2048x256_1_0_0_1_n_n none
          (concatenate S2048x256 1 [⟨S2048x128, truncf .bf16 vs Facts₀.bitsLt_bf16_f32⟩,
            ⟨S2048x128, truncf .bf16 vd Facts₀.bitsLt_bf16_f32⟩] Facts₀.concatenates_S2048x128_S2048x128_S2048x256_d1)
          v1 (constant S2048x256 .f32 0x00000000#32))
        (matmul dot_S2048x64_S64x256_S2048x256_1_0_0_1_n_n none (truncf .bf16 ve Facts₀.bitsLt_bf16_f32) v3
          (constant S2048x256 .f32 0x00000000#32)))
        (matmul dot_S2048x16_S16x256_S2048x256_1_0_0_1_n_n none
          (truncf .bf16 (sitofp (F := Ideal) .f32 (extui 32 (cmpi .eq
            (broadcastTo S2048x16 (shapeCast S2048x1 vb Facts₀.shapeCasts_S2048_S2048x1) Facts₀.broadcasts_S2048x1_S2048x16)
            groupIota) Facts₀.natLt_1_32)) Facts₀.bitsLt_bf16_f32)
          v5 (constant S2048x256 .f32 0x00000000#32)))
        (broadcastTo S2048x256 (shapeCast S1x256 v6 Facts₀.shapeCasts_S256_S1x256) Facts₀.broadcasts_S1x256_S2048x256)
        (ix2 r q)
      = Cert.EdgeMlp.hiddenSplit (fun k => vs (ix2 r k)) (fun k => vd (ix2 r k)) (fun k => ve (ix2 r k)) (vb (ix1 r))
          (fun k q => v1 (ix2 k q)) (fun k q => v3 (ix2 k q)) (fun g q => v5 (ix2 g q)) (fun q => v6 (ix1 q)) q := by
  unfold Cert.EdgeMlp.hiddenSplit
  refine (addf_apply _ _ _).trans (congrArg₂ (· + ·) ?_ (bias256_apply v6 r q))
  refine (addf_apply _ _ _).trans (congrArg₂ (· + ·) ?_ ?_)
  · refine (addf_apply _ _ _).trans (congrArg₂ (· + ·) ?_ ?_)
    · -- the joined rows: the concatenation at column k is the joined row of the two rows (a format change is the identity)
      refine (mm_sd_apply _ v1 r q).trans (Finset.sum_congr rfl fun k _ => ?_)
      exact congrArg (· * v1 (ix2 k q)) (concat_apply _ _ r k)
    · exact mm_ed_apply _ v3 r q
  · -- the one-hot rows
    refine (mm_grp_apply _ v5 r q).trans (Finset.sum_congr rfl fun g _ => ?_)
    exact congrArg (· * v5 (ix2 g q)) (onehot_apply vb r g)

/-- THE CHUNK AT AN ELEMENT: row r, column j of a chunk's stored value is the specification's output row (split form) of row r
    of the chunk's loads, against the weight operands read entry by entry. -/
theorem chunkOut_apply (v1 : FVec Ideal S256x256 .bf16) (v3 : FVec Ideal S64x256 .bf16) (v5 : FVec Ideal S16x256 .bf16)
    (v6 : FVec Ideal S256 .f32) (v8 : FVec Ideal S256x64 .bf16) (v9 : FVec Ideal S64 .f32)
    (vs vd : FVec Ideal S2048x128 .f32) (ve : FVec Ideal S2048x64 .f32) (vb : IVec S2048 32) (r : Fin 2048) (j : Fin 64) :
    chunkOut (F := Ideal) v1 v3 v5 v6 v8 v9 vs vd ve vb (ix2 r j)
      = Cert.EdgeMlp.rowOut
          (Cert.EdgeMlp.hiddenSplit (fun k => vs (ix2 r k)) (fun k => vd (ix2 r k)) (fun k => ve (ix2 r k)) (vb (ix1 r))
            (fun k q => v1 (ix2 k q)) (fun k q => v3 (ix2 k q)) (fun g q => v5 (ix2 g q)) (fun q => v6 (ix1 q)))
          (fun q j => v8 (ix2 q j)) (fun j => v9 (ix1 j)) j := by
  unfold chunkOut k0_pay9 Cert.EdgeMlp.rowOut
  -- the second layer's product plus its bias
  refine (addf_apply _ _ _).trans (congrArg₂ (· + ·) ?_ (bias64_apply v9 r j))
  refine (mm_out_apply _ v8 r j).trans (Finset.sum_congr rfl fun q _ => ?_)
  refine congrArg (· * v8 (ix2 q j)) ?_
  -- the rectifier: the maximum with the zero scalar (a format change is the identity)
  refine (maximumf_apply _ _ _).trans (congrArg₂ max (hidden_apply v1 v3 v5 v6 vs vd ve vb r q) ?_)
  exact Ideal.ofBits_zero_f32

end Cert.EdgeMlp.Chunk

end
-- ==== Proof.BlockValue.lean ====
/-
  From the body's four stored chunks to the whole result array.

  At a grid point the body leaves, in the output's 8192-row staging block, four stored chunks of 2048 rows; each is the chunk
  function of the six weight operands and of the same 2048 rows of the point's src, dest, edge_attr and group-word blocks. So the
  block is ONE function of the point's ten input blocks, row by row (`blockArr`). Point t's input blocks are rows
  8192·t .. 8192·t + 8191 of the argument arrays and the whole prepared weight arrays, so what point t writes back is block t of
  the specification's array `G`; the 64 blocks tile the 524288 rows, and the array ends holding `G`.
-/
import proofs.«423411_j49246095016466_3_alg».proof.Proof.Gen.KernelIdeal.Value
import proofs.«423411_j49246095016466_3_alg».proof.Proof.RowSpec
import proofs.«423411_j49246095016466_3_alg».proof.Proof.ChunkRead
import proofs.«423411_j49246095016466_3_alg».proof.Proof.HostPrep
import Idealize.ShloMosaic.Lib.Pipeline.Value
import Idealize.ShloMosaic.Lib.ValueIdx

set_option maxRecDepth 16384

noncomputable section

open scoped BigOperators

namespace Cert.EdgeMlp.Block

open Idealize.ShloMosaic Idealize.ShloMosaic.TcCoe Idealize.ShloMosaic.Tactic Idealize.ShloMosaic.ValueIdx Idealize.SL.Sem
open Cert.KernelIdeal Cert.KernelIdeal.Gen Cert.EdgeMlp
open Idealize.ShloMosaic.Pipeline (Dat)

/-- Row r, column j of the body's result on a block, from the block's ten inputs: the specification's output row (split
    form) of row r. -/
def blockOut (x0 x1 : Vec Ideal S8192x128 .f32) (x2 : Vec Ideal S8192x64 .f32) (x3 : Vec Ideal S8192 .i32)
    (x4 : Vec Ideal S16x256 .bf16) (x5 : Vec Ideal S256x256 .bf16) (x6 : Vec Ideal S64x256 .bf16)
    (x7 : Vec Ideal S256 .f32) (x8 : Vec Ideal S256x64 .bf16) (x9 : Vec Ideal S64 .f32) (r : Fin 8192) (j : Fin 64) : EReal :=
  rowOut (hiddenSplit (fun k => x0 (ix2 r k)) (fun k => x1 (ix2 r k)) (fun k => x2 (ix2 r k)) (x3 (ix1 r))
      (fun k q => x5 (ix2 k q)) (fun k q => x6 (ix2 k q)) (fun g q => x4 (ix2 g q)) (fun q => x7 (ix1 q)))
    (fun q j => x8 (ix2 q j)) (fun j => x9 (ix1 j)) j

/-- The body's result on a block, as an array. -/
def blockArr (x0 x1 : Vec Ideal S8192x128 .f32) (x2 : Vec Ideal S8192x64 .f32) (x3 : Vec Ideal S8192 .i32)
    (x4 : Vec Ideal S16x256 .bf16) (x5 : Vec Ideal S256x256 .bf16) (x6 : Vec Ideal S64x256 .bf16)
    (x7 : Vec Ideal S256 .f32) (x8 : Vec Ideal S256x64 .bf16) (x9 : Vec Ideal S64 .f32) : FVec Ideal S8192x64 .f32 :=
  fun y => blockOut x0 x1 x2 x3 x4 x5 x6 x7 x8 x9 ⟨(y 0).val, idx2_lt0 y⟩ ⟨(y 1).val, idx2_lt1 y⟩

/-- Row r, column k of the 2048-row stretch from row o of a two-axis array is its row o + r, column k. -/
theorem idx_rows2 {n0 n1 : Nat} (o : Nat) (inb : ∀ a, (![o, 0] : Fin 2 → Nat) a + (![2048, n1] : Fin 2 → Nat) a ≤ (⟨2, ![n0, n1]⟩ : Shape).size a)
    (r : Fin 2048) (k : Fin n1) (h0 : o + r.val < n0) :
    (Rect.unit (s := (⟨2, ![n0, n1]⟩ : Shape)) ![o, 0] ![2048, n1] inb).idx (ix2 r k) = ix2 ⟨o + r.val, h0⟩ k := by
  funext a
  match a with
  | ⟨0, _⟩ => exact Fin.ext (by show o + 1 * r.val = o + r.val; omega)
  | ⟨1, _⟩ => exact Fin.ext (by show 0 + 1 * k.val = k.val; omega)

/-- Entry r of the 2048-entry stretch from entry o of a one-axis array is its entry o + r. -/
theorem idx_rows1 {n0 : Nat} (o : Nat) (inb : ∀ a, (![o] : Fin 1 → Nat) a + (![2048] : Fin 1 → Nat) a ≤ (⟨1, ![n0]⟩ : Shape).size a)
    (r : Fin 2048) (h0 : o + r.val < n0) :
    (Rect.unit (s := (⟨1, ![n0]⟩ : Shape)) ![o] ![2048] inb).idx (ix1 r) = ix1 ⟨o + r.val, h0⟩ := by
  funext a
  match a with
  | ⟨0, _⟩ => exact Fin.ext (by show o + 1 * r.val = o + r.val; omega)

/-- A chunk's stored value at (r, j) is the block's function at the chunk's place: the chunk at row offset o is computed from
    rows o .. o + 2047 of the block's inputs. -/
theorem chunk_at (x0 x1 : Vec Ideal S8192x128 .f32) (x2 : Vec Ideal S8192x64 .f32) (x3 : Vec Ideal S8192 .i32)
    (x4 : Vec Ideal S16x256 .bf16) (x5 : Vec Ideal S256x256 .bf16) (x6 : Vec Ideal S64x256 .bf16)
    (x7 : Vec Ideal S256 .f32) (x8 : Vec Ideal S256x64 .bf16) (x9 : Vec Ideal S64 .f32)
    (o : Nat) (ho : o + 2048 ≤ 8192)
    (inbS : ∀ a, (![o, 0] : Fin 2 → Nat) a + (![2048, 128] : Fin 2 → Nat) a ≤ S8192x128.size a)
    (inbE : ∀ a, (![o, 0] : Fin 2 → Nat) a + (![2048, 64] : Fin 2 → Nat) a ≤ S8192x64.size a)
    (inbB : ∀ a, (![o] : Fin 1 → Nat) a + (![2048] : Fin 1 → Nat) a ≤ S8192.size a)
    (r : Fin 2048) (j : Fin 64) :
    Chunk.chunkOut (F := Ideal) x5 x6 x4 x7 x8 x9 (View.ld (Val := Elt Ideal) (e' := .f32) x0 (Rect.unit (s := S8192x128) ![o, 0] ![2048, 128] inbS))
        (View.ld (Val := Elt Ideal) (e' := .f32) x1 (Rect.unit (s := S8192x128) ![o, 0] ![2048, 128] inbS)) (View.ld (Val := Elt Ideal) (e' := .f32) x2 (Rect.unit (s := S8192x64) ![o, 0] ![2048, 64] inbE))
        (View.ld (Val := Elt Ideal) (e' := .i32) x3 (Rect.unit (s := S8192) ![o] ![2048] inbB)) (ix2 r j)
      = blockArr x0 x1 x2 x3 x4 x5 x6 x7 x8 x9 ((Rect.unit (s := S8192x64) ![o, 0] ![2048, 64] inbE).emb (ix2 r j)) := by
  have hr : o + r.val < 8192 := by have := r.isLt; omega
  refine (Chunk.chunkOut_apply x5 x6 x4 x7 x8 x9 _ _ _ _ r j).trans ?_
  have e0 : ∀ k : Fin 128, View.ld (Val := Elt Ideal) (e' := .f32) x0 (Rect.unit (s := S8192x128) ![o, 0] ![2048, 128] inbS) (ix2 r k) = x0 (ix2 ⟨o + r.val, hr⟩ k) :=
    fun k => congrArg x0 (idx_rows2 o inbS r k hr)
  have e1 : ∀ k : Fin 128, View.ld (Val := Elt Ideal) (e' := .f32) x1 (Rect.unit (s := S8192x128) ![o, 0] ![2048, 128] inbS) (ix2 r k) = x1 (ix2 ⟨o + r.val, hr⟩ k) :=
    fun k => congrArg x1 (idx_rows2 o inbS r k hr)
  have e2 : ∀ k : Fin 64, View.ld (Val := Elt Ideal) (e' := .f32) x2 (Rect.unit (s := S8192x64) ![o, 0] ![2048, 64] inbE) (ix2 r k) = x2 (ix2 ⟨o + r.val, hr⟩ k) :=
    fun k => congrArg x2 (idx_rows2 o inbE r k hr)
  have e3 : View.ld (Val := Elt Ideal) (e' := .i32) x3 (Rect.unit (s := S8192) ![o] ![2048] inbB) (ix1 r) = x3 (ix1 ⟨o + r.val, hr⟩) :=
    congrArg x3 (idx_rows1 o inbB r hr)
  simp only [e0, e1, e2, e3]
  have ey : (Rect.unit (s := S8192x64) ![o, 0] ![2048, 64] inbE).emb (ix2 r j) = (ix2 ⟨o + r.val, hr⟩ j : S8192x64.Idx) :=
    idx_rows2 o inbE r j hr
  rw [ey]
  rfl

theorem hz2 : (![0, 0] : Fin 2 → Nat) = fun _ => 0 := funext fun a => by fin_cases a <;> rfl
theorem hz1 : (![0] : Fin 1 → Nat) = fun _ => 0 := funext fun a => by fin_cases a; rfl

/-- WHAT THE BODY LEAVES IN THE OUTPUT'S STAGING BLOCK: its four stored chunks, read back, are the one block function of the
    body's ten input blocks — each chunk is that function on its own 2048 rows, and the four tile the block. -/
theorem out_eq_blockArr (c : Dev nD) (i : grid0.Coords) (arg1 : Memref sig .tc .vmem S8192x128 .f32) (harg1 : arg1.IsWhole) (arg2 : Memref sig .tc .vmem S8192x128 .f32) (harg2 : arg2.IsWhole) (arg3 : Memref sig .tc .vmem S8192x64 .f32) (harg3 : arg3.IsWhole) (arg4 : Memref sig .tc .vmem S8192 .i32) (harg4 : arg4.IsWhole) (arg5 : Memref sig .tc .vmem S16x256 .bf16) (harg5 : arg5.IsWhole) (arg6 : Memref sig .tc .vmem S256x256 .bf16) (harg6 : arg6.IsWhole) (arg7 : Memref sig .tc .vmem S64x256 .bf16) (harg7 : arg7.IsWhole) (arg8 : Memref sig .tc .vmem S256 .f32) (harg8 : arg8.IsWhole) (arg9 : Memref sig .tc .vmem S256x64 .bf16) (harg9 : arg9.IsWhole) (arg10 : Memref sig .tc .vmem S64 .f32) (harg10 : arg10.IsWhole) (arg11 : Memref sig .tc .vmem S8192x64 .f32) (harg11 : arg11.IsWhole)
    (x0 x1 : Vec Ideal S8192x128 .f32) (x2 : Vec Ideal S8192x64 .f32) (x3 : Vec Ideal S8192 .i32)
    (x4 : Vec Ideal S16x256 .bf16) (x5 : Vec Ideal S256x256 .bf16) (x6 : Vec Ideal S64x256 .bf16)
    (x7 : Vec Ideal S256 .f32) (x8 : Vec Ideal S256x64 .bf16) (x9 : Vec Ideal S64 .f32) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 = blockArr x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  funext y
  refine View.canon_apply_of_pieces (blockArr x0 x1 x2 x3 x4 x5 x6 x7 x8 x9) _ ?_ y (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 y)
  unfold kernelRun0_A
  dsimp only
  sl_unfold_words
  intro p hp x
  simp only [List.mem_cons, List.not_mem_nil, or_false] at hp
  rcases hp with rfl | rfl | rfl | rfl
  all_goals obtain ⟨r, j, rfl⟩ : ∃ (r : Fin 2048) (j : Fin 64), x = ix2 r j := ⟨x 0, x 1, eq_ix2 x⟩
  all_goals simp only [View.readAt_eq_ld, harg1.read_unread, harg2.read_unread, harg3.read_unread, harg4.read_unread,
      harg5.read_unread, harg6.read_unread, harg7.read_unread, harg8.read_unread, harg9.read_unread, harg10.read_unread,
      View.ld_unit_zero (S := S256x256) hz2, View.ld_unit_zero (S := S64x256) hz2, View.ld_unit_zero (S := S16x256) hz2,
      View.ld_unit_zero (S := S256x64) hz2, View.ld_unit_zero (S := S256) hz1, View.ld_unit_zero (S := S64) hz1]
  · -- rows 6144 .. 8191
    refine (congrFun (Chunk.pay1_eq _ _ _ _ _ _ _ _ _ _) (ix2 r j)).trans ?_
    rw [Chunk.pay2_eq, Chunk.pay3_eq, Chunk.pay4_eq, Chunk.pay5_eq]
    exact chunk_at x0 x1 x2 x3 x4 x5 x6 x7 x8 x9 6144 (by omega) _ _ _ r j
  · -- rows 4096 .. 6143
    refine (congrFun (Chunk.pay10_eq _ _ _ _ _ _ _ _ _ _) (ix2 r j)).trans ?_
    rw [Chunk.pay2_eq, Chunk.pay3_eq, Chunk.pay4_eq, Chunk.pay5_eq]
    exact chunk_at x0 x1 x2 x3 x4 x5 x6 x7 x8 x9 4096 (by omega) _ _ _ r j
  · -- rows 2048 .. 4095
    refine (congrFun (Chunk.pay9_eq _ _ _ _ _ _ _ _ _ _) (ix2 r j)).trans ?_
    rw [Chunk.pay2_eq, Chunk.pay3_eq, Chunk.pay4_eq, Chunk.pay5_eq]
    exact chunk_at x0 x1 x2 x3 x4 x5 x6 x7 x8 x9 2048 (by omega) _ _ _ r j
  · -- rows 0 .. 2047
    refine (congrFun (Chunk.pay8_eq _ _ _ _ _ _ _ _ _ _) (ix2 r j)).trans ?_
    rw [Chunk.pay2_eq, Chunk.pay3_eq, Chunk.pay4_eq, Chunk.pay5_eq]
    exact chunk_at x0 x1 x2 x3 x4 x5 x6 x7 x8 x9 0 (by omega) _ _ _ r j

/-! ## What point t writes back -/

variable (m : (ℓ : Loc nD τ sig) → Buf (Elt Ideal) ℓ)

/-- The nine argument arrays as launched, each at its literal type. -/
abbrev a0 (c : Dev nD) : FVec Ideal S524288x128 .f32 := m ((c : Thread nD τ).loc main_arg0)
abbrev a1 (c : Dev nD) : FVec Ideal S524288x128 .f32 := m ((c : Thread nD τ).loc main_arg1)
abbrev a2 (c : Dev nD) : FVec Ideal S524288x64 .f32 := m ((c : Thread nD τ).loc main_arg2)
abbrev a3 (c : Dev nD) : FVec Ideal S16x64 .f32 := m ((c : Thread nD τ).loc main_arg3)
abbrev a4 (c : Dev nD) : IVec S524288 32 := m ((c : Thread nD τ).loc main_arg4)
abbrev a5 (c : Dev nD) : FVec Ideal S384x256 .f32 := m ((c : Thread nD τ).loc main_arg5)
abbrev a6 (c : Dev nD) : FVec Ideal S256 .f32 := m ((c : Thread nD τ).loc main_arg6)
abbrev a7 (c : Dev nD) : FVec Ideal S256x64 .f32 := m ((c : Thread nD τ).loc main_arg7)
abbrev a8 (c : Dev nD) : FVec Ideal S64 .f32 := m ((c : Thread nD τ).loc main_arg8)

/-- The specification's array of the launched arguments. -/
abbrev GA (c : Dev nD) : FVec Ideal S524288x64 .f32 :=
  G (a0 m c) (a1 m c) (a2 m c) (a3 m c) (a4 m c) (a5 m c) (a6 m c) (a7 m c) (a8 m c)

/-- Point t's ten input blocks, each at its literal type. -/
abbrev b0 (c : Dev nD) (t : Fin cfg0.N) : Vec Ideal S8192x128 .f32 := iblk m c 0 t
abbrev b1 (c : Dev nD) (t : Fin cfg0.N) : Vec Ideal S8192x128 .f32 := iblk m c 1 t
abbrev b2 (c : Dev nD) (t : Fin cfg0.N) : Vec Ideal S8192x64 .f32 := iblk m c 2 t
abbrev b3 (c : Dev nD) (t : Fin cfg0.N) : Vec Ideal S8192 .i32 := iblk m c 3 t
abbrev b4 (c : Dev nD) (t : Fin cfg0.N) : Vec Ideal S16x256 .bf16 := iblk m c 4 t
abbrev b5 (c : Dev nD) (t : Fin cfg0.N) : Vec Ideal S256x256 .bf16 := iblk m c 5 t
abbrev b6 (c : Dev nD) (t : Fin cfg0.N) : Vec Ideal S64x256 .bf16 := iblk m c 6 t
abbrev b7 (c : Dev nD) (t : Fin cfg0.N) : Vec Ideal S256 .f32 := iblk m c 7 t
abbrev b8 (c : Dev nD) (t : Fin cfg0.N) : Vec Ideal S256x64 .bf16 := iblk m c 8 t
abbrev b9 (c : Dev nD) (t : Fin cfg0.N) : Vec Ideal S64 .f32 := iblk m c 9 t

/-- The printed index maps, decided over the 64 points: the four row windows and the output window read block t of the
    rows; the six weight windows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

theorem t_lt (t : Fin cfg0.N) : t.val < 64 := lt_of_lt_of_eq t.isLt N_0

/-- Row r of point t's src block is row 8192·t + r of src. -/
theorem b0_apply (c : Dev nD) (t : Fin cfg0.N) (r : Fin 8192) (k : Fin 128) (h : t.val * 8192 + r.val < 524288) :
    b0 m c t (ix2 r k) = a0 m c (ix2 ⟨t.val * 8192 + r.val, h⟩ k) := by
  obtain ⟨e00, e01, -⟩ := idx_facts t
  show V m c main_arg0 (((cfg0.win 0).blk t).view.emb (ix2 r k)) = _
  rw [V_main_arg0]
  refine congrArg (a0 m c) (funext fun a => Fin.ext ?_)
  match a with
  | ⟨0, _⟩ => show win0_0.index t (0 : Fin 2) * 8192 + 1 * r.val = t.val * 8192 + r.val; omega
  | ⟨1, _⟩ => show win0_0.index t (1 : Fin 2) * 128 + 1 * k.val = k.val; omega

/-- Row r of point t's dest block is row 8192·t + r of dest. -/
theorem b1_apply (c : Dev nD) (t : Fin cfg0.N) (r : Fin 8192) (k : Fin 128) (h : t.val * 8192 + r.val < 524288) :
    b1 m c t (ix2 r k) = a1 m c (ix2 ⟨t.val * 8192 + r.val, h⟩ k) := by
  obtain ⟨-, -, e10, e11, -⟩ := idx_facts t
  show V m c main_arg1 (((cfg0.win 1).blk t).view.emb (ix2 r k)) = _
  rw [V_main_arg1]
  refine congrArg (a1 m c) (funext fun a => Fin.ext ?_)
  match a with
  | ⟨0, _⟩ => show win0_1.index t (0 : Fin 2) * 8192 + 1 * r.val = t.val * 8192 + r.val; omega
  | ⟨1, _⟩ => show win0_1.index t (1 : Fin 2) * 128 + 1 * k.val = k.val; omega

/-- Row r of point t's edge_attr block is row 8192·t + r of edge_attr. -/
theorem b2_apply (c : Dev nD) (t : Fin cfg0.N) (r : Fin 8192) (k : Fin 64) (h : t.val * 8192 + r.val < 524288) :
    b2 m c t (ix2 r k) = a2 m c (ix2 ⟨t.val * 8192 + r.val, h⟩ k) := by
  obtain ⟨-, -, -, -, e20, e21, -⟩ := idx_facts t
  show V m c main_arg2 (((cfg0.win 2).blk t).view.emb (ix2 r k)) = _
  rw [V_main_arg2]
  refine congrArg (a2 m c) (funext fun a => Fin.ext ?_)
  match a with
  | ⟨0, _⟩ => show win0_2.index t (0 : Fin 2) * 8192 + 1 * r.val = t.val * 8192 + r.val; omega
  | ⟨1, _⟩ => show win0_2.index t (1 : Fin 2) * 64 + 1 * k.val = k.val; omega

/-- Entry r of point t's block of group words is entry 8192·t + r of batch. -/
theorem b3_apply (c : Dev nD) (t : Fin cfg0.N) (r : Fin 8192) (h : t.val * 8192 + r.val < 524288) :
    b3 m c t (ix1 r) = a4 m c (ix1 ⟨t.val * 8192 + r.val, h⟩) := by
  obtain ⟨-, -, -, -, -, -, e30, -⟩ := idx_facts t
  show V m c main_arg4 (((cfg0.win 3).blk t).view.emb (ix1 r)) = _
  rw [V_main_arg4]
  refine congrArg (a4 m c) (funext fun a => Fin.ext ?_)
  match a with
  | ⟨0, _⟩ => show win0_3.index t (0 : Fin 1) * 8192 + 1 * r.val = t.val * 8192 + r.val; omega

/-- Every point's table block is the whole groups' table. -/
theorem b4_apply (c : Dev nD) (t : Fin cfg0.N) (g : Fin 16) (q : Fin 256) :
    b4 m c t (ix2 g q) = Host.tableArr m c (ix2 g q) := by
  obtain ⟨-, -, -, -, -, -, -, e40, e41, -⟩ := idx_facts t
  show V m c main_v4 (((cfg0.win 4).blk t).view.emb (ix2 g q)) = V m c main_v4 (ix2 g q)
  refine congrArg (V m c main_v4) (funext fun a => Fin.ext ?_)
  match a with
  | ⟨0, _⟩ => show win0_4.index t (0 : Fin 2) * 16 + 1 * g.val = g.val; omega
  | ⟨1, _⟩ => show win0_4.index t (1 : Fin 2) * 256 + 1 * q.val = q.val; omega

/-- Every point's first weight block is the whole prepared array. -/
theorem b5_apply (c : Dev nD) (t : Fin cfg0.N) (k q : Fin 256) :
    b5 m c t (ix2 k q) = Host.loArr m c (ix2 k q) := by
  obtain ⟨-, -, -, -, -, -, -, -, -, e50, e51, -⟩ := idx_facts t
  show V m c main_v5 (((cfg0.win 5).blk t).view.emb (ix2 k q)) = V m c main_v5 (ix2 k q)
  refine congrArg (V m c main_v5) (funext fun a => Fin.ext ?_)
  match a with
  | ⟨0, _⟩ => show win0_5.index t (0 : Fin 2) * 256 + 1 * k.val = k.val; omega
  | ⟨1, _⟩ => show win0_5.index t (1 : Fin 2) * 256 + 1 * q.val = q.val; omega

/-- Every point's second weight block is the whole prepared array. -/
theorem b6_apply (c : Dev nD) (t : Fin cfg0.N) (k : Fin 64) (q : Fin 256) :
    b6 m c t (ix2 k q) = Host.midArr m c (ix2 k q) := by
  obtain ⟨-, -, -, -, -, -, -, -, -, -, -, e60, e61, -⟩ := idx_facts t
  show V m c main_v6 (((cfg0.win 6).blk t).view.emb (ix2 k q)) = V m c main_v6 (ix2 k q)
  refine congrArg (V m c main_v6) (funext fun a => Fin.ext ?_)
  match a with
  | ⟨0, _⟩ => show win0_6.index t (0 : Fin 2) * 64 + 1 * k.val = k.val; omega
  | ⟨1, _⟩ => show win0_6.index t (1 : Fin 2) * 256 + 1 * q.val = q.val; omega

/-- Every point's first bias block is b1. -/
theorem b7_apply (c : Dev nD) (t : Fin cfg0.N) (q : Fin 256) : b7 m c t (ix1 q) = a6 m c (ix1 q) := by
  obtain ⟨-, -, -, -, -, -, -, -, -, -, -, -, -, e70, -⟩ := idx_facts t
  show V m c main_arg6 (((cfg0.win 7).blk t).view.emb (ix1 q)) = _
  rw [V_main_arg6]
  refine congrArg (a6 m c) (funext fun a => Fin.ext ?_)
  match a with
  | ⟨0, _⟩ => show win0_7.index t (0 : Fin 1) * 256 + 1 * q.val = q.val; omega

/-- Every point's second-layer weight block is W2. -/
theorem b8_apply (c : Dev nD) (t : Fin cfg0.N) (q : Fin 256) (j : Fin 64) : b8 m c t (ix2 q j) = a7 m c (ix2 q j) := by
  obtain ⟨-, -, -, -, -, -, -, -, -, -, -, -, -, -, e80, e81, -⟩ := idx_facts t
  have e : b8 m c t (ix2 q j) = Host.w2bArr m c (ix2 q j) := by
    show V m c main_v7 (((cfg0.win 8).blk t).view.emb (ix2 q j)) = V m c main_v7 (ix2 q j)
    refine congrArg (V m c main_v7) (funext fun a => Fin.ext ?_)
    match a with
    | ⟨0, _⟩ => show win0_8.index t (0 : Fin 2) * 256 + 1 * q.val = q.val; omega
    | ⟨1, _⟩ => show win0_8.index t (1 : Fin 2) * 64 + 1 * j.val = j.val; omega
  rw [e, Host.V_w2]

/-- Every point's second bias block is b2. -/
theorem b9_apply (c : Dev nD) (t : Fin cfg0.N) (j : Fin 64) : b9 m c t (ix1 j) = a8 m c (ix1 j) := by
  obtain ⟨-, -, -, -, -, -, -, -, -, -, -, -, -, -, -, -, e90, -⟩ := idx_facts t
  show V m c main_arg8 (((cfg0.win 9).blk t).view.emb (ix1 j)) = _
  rw [V_main_arg8]
  refine congrArg (a8 m c) (funext fun a => Fin.ext ?_)
  match a with
  | ⟨0, _⟩ => show win0_9.index t (0 : Fin 1) * 64 + 1 * j.val = j.val; omega

/-- The output row depends on its ten ingredients only through their values. -/
theorem rowOut_congr {s s' d d' : Fin 128 → EReal} {ed ed' : Fin 64 → EReal} {w w' : BitVec 32}
    {Wsd Wsd' : Fin 256 → Fin 256 → EReal} {We We' : Fin 64 → Fin 256 → EReal} {T T' : Fin 16 → Fin 256 → EReal}
    {c1 c1' : Fin 256 → EReal} {W2 W2' : Fin 256 → Fin 64 → EReal} {c2 c2' : Fin 64 → EReal} (j : Fin 64)
    (hs : s = s') (hd : d = d') (hed : ed = ed') (hw : w = w') (hWsd : Wsd = Wsd') (hWe : We = We') (hT : T = T')
    (h1 : c1 = c1') (hW2 : W2 = W2') (h2 : c2 = c2') :
    rowOut (hiddenSplit s d ed w Wsd We T c1) W2 c2 j = rowOut (hiddenSplit s' d' ed' w' Wsd' We' T' c1') W2' c2' j := by
  subst hs hd hed hw hWsd hWe hT h1 hW2 h2; rfl

/-- WHAT POINT t WRITES BACK is block t of the specification's array. -/
theorem flushed_eq (c : Dev nD) (t : Fin cfg0.N) :
    (dats m 0 c).flushed 10 t = ((cfg0.win 10).blk t).view.read (Elt Ideal) (GA m c) := by
  refine (Value.flushed10_A m c t).trans ?_
  rw [out_eq_blockArr]
  funext y
  obtain ⟨r, j, rfl⟩ : ∃ (r : Fin 8192) (j : Fin 64), y = ix2 r j := ⟨y 0, y 1, eq_ix2 y⟩
  have ht := t_lt t
  have hr : t.val * 8192 + r.val < 524288 := by have := r.isLt; omega
  obtain ⟨-, -, -, -, -, -, -, -, -, -, -, -, -, -, -, -, -, e100, e101⟩ := idx_facts t
  have ey : ((cfg0.win 10).blk t).view.emb (ix2 r j) = (ix2 ⟨t.val * 8192 + r.val, hr⟩ j : S524288x64.Idx) := by
    funext a; apply Fin.ext
    match a with
    | ⟨0, _⟩ => show win0_10.index t (0 : Fin 2) * 8192 + 1 * r.val = t.val * 8192 + r.val; omega
    | ⟨1, _⟩ => show win0_10.index t (1 : Fin 2) * 64 + 1 * j.val = j.val; omega
  show blockArr (b0 m c t) (b1 m c t) (b2 m c t) (b3 m c t) (b4 m c t) (b5 m c t) (b6 m c t) (b7 m c t) (b8 m c t) (b9 m c t) (ix2 r j)
      = GA m c (((cfg0.win 10).blk t).view.emb (ix2 r j))
  rw [ey]
  show blockOut (b0 m c t) (b1 m c t) (b2 m c t) (b3 m c t) (b4 m c t) (b5 m c t) (b6 m c t) (b7 m c t) (b8 m c t) (b9 m c t) r j
      = rowG (a0 m c) (a1 m c) (a2 m c) (a3 m c) (a4 m c) (a5 m c) (a6 m c) (a7 m c) (a8 m c) ⟨t.val * 8192 + r.val, hr⟩ j
  unfold blockOut rowG
  refine rowOut_congr j (funext fun k => b0_apply m c t r k hr) (funext fun k => b1_apply m c t r k hr)
    (funext fun k => b2_apply m c t r k hr) (b3_apply m c t r hr)
    (funext fun k => funext fun q => (b5_apply m c t k q).trans (Host.V_w1_lo m c k q))
    (funext fun k => funext fun q => (b6_apply m c t k q).trans (Host.V_w1_mid m c k q))
    (funext fun g => funext fun q => (b4_apply m c t g q).trans (Host.V_table m c g q))
    (funext fun q => b7_apply m c t q) (funext fun q => funext fun j' => b8_apply m c t q j') (funext fun j' => b9_apply m c t j')

/-- An index of the result array is in point t's block iff its row lies in rows 8192·t .. 8192·t + 8191. -/
theorem mem_blk (t : Fin cfg0.N) (i : S524288x64.Idx) :
    i ∈ ((cfg0.win 10).blk t).view.set ↔ ∀ a : Fin 2, win0_10.index t a * S8192x64.size a ≤ (i a).val ∧ (i a).val < win0_10.index t a * S8192x64.size a + S8192x64.size a := by
  show i ∈ ((View.whole main_v8).slice (win0_10.rect t)).set ↔ _
  rw [View.set_slice_whole, Rect.mem_set_unit]
  exact Iff.rfl

/-- The 64 blocks tile the rows: row e is in the block of point e / 8192. -/
theorem cover (i : S524288x64.Idx) : ∃ t : Fin cfg0.N, (cfg0.win 10).flush t = true ∧ i ∈ ((cfg0.win 10).blk t).view.set := by
  have hi0 : (i 0).val < 524288 := idx2_lt0 i
  have hi1 : (i 1).val < 64 := idx2_lt1 i
  have hN : (i 0).val / 8192 < cfg0.N := lt_of_lt_of_eq (show (i 0).val / 8192 < 64 by omega) N_0.symm
  refine ⟨⟨(i 0).val / 8192, hN⟩, flush0_10 _, ?_⟩
  obtain ⟨-, -, -, -, -, -, -, -, -, -, -, -, -, -, -, -, -, e100, e101⟩ := idx_facts ⟨(i 0).val / 8192, hN⟩
  rw [mem_blk]
  intro a
  match a with
  | ⟨0, _⟩ =>
    show win0_10.index ⟨(i 0).val / 8192, hN⟩ (0 : Fin 2) * 8192 ≤ (i 0).val ∧ (i 0).val < win0_10.index ⟨(i 0).val / 8192, hN⟩ (0 : Fin 2) * 8192 + 8192
    rw [e100]; show (i 0).val / 8192 * 8192 ≤ (i 0).val ∧ (i 0).val < (i 0).val / 8192 * 8192 + 8192; omega
  | ⟨1, _⟩ =>
    show win0_10.index ⟨(i 0).val / 8192, hN⟩ (1 : Fin 2) * 64 ≤ (i 1).val ∧ (i 1).val < win0_10.index ⟨(i 0).val / 8192, hN⟩ (1 : Fin 2) * 64 + 64
    rw [e101]; omega

/-- THE RESULT ARRAY after the run is the specification's array of the launched arguments. -/
theorem final (c : Dev nD) : (dats m 0 c).arrAt 10 cfg0.N = GA m c :=
  (dats m 0 c).arrAt_eq_of_cover 10 (GA m c) (fun t _ => flushed_eq m c t) cover

end Cert.EdgeMlp.Block

end
-- ==== Proof.lean ====
/-
  An edge model: for each of 524288 edges, the row [ src[e] | dest[e] | edge_attr[e] | u[batch[e]] ] through a two-layer
  perceptron,  out[e, j] = Σ_q max(Σ_k x[e, k] · W1[k, q] + b1[q], 0) · W2[q, j] + b2[j].

  The reference gathers u[batch[e]], joins the four rows and makes ONE contraction of length 384 against W1. The kernel never
  gathers: its host side prepares the table T[g, q] = Σ_k u[g, k] · W1[320 + k, q] of the 16 groups' contributions, and its body,
  per chunk of 2048 edges, adds three contractions — [ src | dest ] against W1's rows 0..255, edge_attr against rows 256..319,
  and the one-hot row of the group word batch[e] against T — before the bias, the rectifier and the second layer. For a group
  word in [0, 16) the one-hot row is the indicator of the group, its contraction with T is T's row batch[e], that is
  u[batch[e]] against W1's rows 320..383, and the three contractions are the three stretches of the one of length 384
  (Proof/RowSpec.lean: only commutativity and associativity of + and 0·x = 0, 1·x = x are used, so no finiteness is needed).
  Outside [0, 16) the two programs differ (the one-hot row is all zero while the gather clamps its index), so the claim carries
  the precondition that every group word lies in [0, 16), the range in which the reference's own u[batch] indexes inside u;
  Proof/PreRange.lean reads that range off the printed precondition.

  Kernel side: the body's four stored chunks are one function of the grid point's input blocks, row by row
  (Proof/ChunkRead.lean, one chunk at an element; Proof/BlockValue.lean, the block, what each of the 64 points writes back, the
  tiling of the rows, and the final array), over the host-prepared weight arrays read at an index (Proof/HostPrep.lean).
  Reference side: its run read stage by stage, with the gather and the four-way concatenation read at an index by hand
  (Proof/RefRead.lean). Both end at the same array `Cert.EdgeMlp.G` of the launched arguments.
-/
import proofs.«423411_j49246095016466_3_alg».proof.Defs
import proofs.«423411_j49246095016466_3_alg».proof.Proof.Gen.Kernel
import proofs.«423411_j49246095016466_3_alg».proof.Proof.Gen.Kernel.Skeleton
import proofs.«423411_j49246095016466_3_alg».proof.Proof.Gen.Kernel.Launch
import proofs.«423411_j49246095016466_3_alg».proof.Proof.Gen.Kernel.Points
import proofs.«423411_j49246095016466_3_alg».proof.Proof.Gen.Kernel.Frame
import proofs.«423411_j49246095016466_3_alg».proof.Proof.Gen.KernelIdeal
import proofs.«423411_j49246095016466_3_alg».proof.Proof.Gen.KernelIdeal.Skeleton
import proofs.«423411_j49246095016466_3_alg».proof.Proof.Gen.KernelIdeal.Launch
import proofs.«423411_j49246095016466_3_alg».proof.Proof.Gen.KernelIdeal.Points
import proofs.«423411_j49246095016466_3_alg».proof.Proof.Gen.KernelIdeal.Frame
import proofs.«423411_j49246095016466_3_alg».proof.Proof.Gen.ReferenceIdeal
import proofs.«423411_j49246095016466_3_alg».proof.Proof.Gen.Pre_finite_inputs
import proofs.«423411_j49246095016466_3_alg».proof.Proof.Gen.KernelIdeal.Value
import proofs.«423411_j49246095016466_3_alg».proof.Proof.Gen.ReferenceIdeal.Run
import proofs.«423411_j49246095016466_3_alg».proof.Proof.Gen.ReferenceIdeal.Read
import proofs.«423411_j49246095016466_3_alg».proof.Proof.RowSpec
import proofs.«423411_j49246095016466_3_alg».proof.Proof.PreRange
import proofs.«423411_j49246095016466_3_alg».proof.Proof.RefRead
import proofs.«423411_j49246095016466_3_alg».proof.Proof.HostPrep
import proofs.«423411_j49246095016466_3_alg».proof.Proof.ChunkRead
import proofs.«423411_j49246095016466_3_alg».proof.Proof.BlockValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every group word in [0, 16), both idealized programs end with the
    result array at the specification's array `G` of the launched arguments. -/
theorem algebraic : Cert.algebraic_KernelIdeal_ReferenceIdeal := by
  intro m ρ m' ρ' hpre hagree
  refine ⟨fun c => Cert.EdgeMlp.Block.GA m c, ?_, ?_⟩
  · exact (θ_run Cert.KernelIdeal.defs _ _).mono
      (fun r h c => ⟨(h c).1.trans (Cert.EdgeMlp.Block.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v16_eq, h0, h1, h2, h3, h4, h5, h6, h7, h8]
    exact Cert.EdgeMlp.Ref.ref_eq_G _ _ _ _ _ _ _ _ _
      (fun e => Cert.EdgeMlp.Pre.batch_range _ _ _ _ _ _ _ _ _ (hpre c) e)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
